-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S16x256x128x128 .f32) (main_arg1 : FVec F S256x1024 .f32) (main_arg2 : FVec F S256 .f32) (main_arg3 : FVec F S1024x256 .f32) (main_arg4 : FVec F S1024 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_v13 main_v16
-- ==== Kernel.lean ====
abbrev S16x256x128x128 : Shape := ⟨4, ![16, 256, 128, 128]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S16x4x256 : Shape := ⟨3, ![16, 4, 256]⟩
abbrev S1x128x128x128 : Shape := ⟨4, ![1, 128, 128, 128]⟩
abbrev S1x4x128 : Shape := ⟨3, ![1, 4, 128]⟩
abbrev S1x128x64x64 : Shape := ⟨4, ![1, 128, 64, 64]⟩
abbrev S1x128x64 : Shape := ⟨3, ![1, 128, 64]⟩
abbrev S1x128 : Shape := ⟨2, ![1, 128]⟩
abbrev S128 : Shape := ⟨1, ![128]⟩
abbrev S1x1x128 : Shape := ⟨3, ![1, 1, 128]⟩
abbrev S16x1024 : Shape := ⟨2, ![16, 1024]⟩
abbrev S16x256 : Shape := ⟨2, ![16, 256]⟩
abbrev S1x256 : Shape := ⟨2, ![1, 256]⟩
abbrev S_ : Shape := ⟨0, ![]⟩
abbrev S1x1024 : Shape := ⟨2, ![1, 1024]⟩
abbrev S4x128 : Shape := ⟨2, ![4, 128]⟩
abbrev S1x128x1x1 : Shape := ⟨4, ![1, 128, 1, 1]⟩

abbrev nBuf : Space → Nat
  | .hbm => 43
  | .vmem => 10
  | .smem => 0
  | _ => 0

abbrev bufTy : (tb : Table) → Fin (tcTables nBuf tb) → BufTy
  | .hbm, ⟨0, _⟩ => ⟨S16x256x128x128, .f32⟩
  | .hbm, ⟨1, _⟩ => ⟨S256x1024, .f32⟩
  | .hbm, ⟨2, _⟩ => ⟨S256, .f32⟩
  | .hbm, ⟨3, _⟩ => ⟨S1024x256, .f32⟩
  | .hbm, ⟨4, _⟩ => ⟨S1024, .f32⟩
  | .hbm, ⟨5, _⟩ => ⟨S16x4x256, .f32⟩
  | .hbm, ⟨6, _⟩ => ⟨S16x1024, .f32⟩
  | .hbm, ⟨7, _⟩ => ⟨S1024x256, .f32⟩
  | .hbm, ⟨8, _⟩ => ⟨S16x256, .f32⟩
  | .hbm, ⟨9, _⟩ => ⟨S1x256, .f32⟩
  | .hbm, ⟨10, _⟩ => ⟨S16x256, .f32⟩
  | .hbm, ⟨11, _⟩ => ⟨S16x256, .f32⟩
  | .hbm, ⟨12, _⟩ => ⟨S_, .f32⟩
  | .hbm, ⟨13, _⟩ => ⟨S16x256, .f32⟩
  | .hbm, ⟨14, _⟩ => ⟨S16x256, .f32⟩
  | .hbm, ⟨15, _⟩ => ⟨S16x256, .f32⟩
  | .hbm, ⟨16, _⟩ => ⟨S16x256, .f32⟩
  | .hbm, ⟨17, _⟩ => ⟨S16x256, .i1⟩
  | .hbm, ⟨18, _⟩ => ⟨S16x256, .f32⟩
  | .hbm, ⟨19, _⟩ => ⟨S16x256, .f32⟩
  | .hbm, ⟨20, _⟩ => ⟨S16x256, .f32⟩
  | .hbm, ⟨21, _⟩ => ⟨S16x256, .f32⟩
  | .hbm, ⟨22, _⟩ => ⟨S16x256, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S16x256, .f32⟩
  | .hbm, ⟨27, _⟩ => ⟨S16x256, .f32⟩
  | .hbm, ⟨28, _⟩ => ⟨S256x1024, .f32⟩
  | .hbm, ⟨29, _⟩ => ⟨S16x1024, .f32⟩
  | .hbm, ⟨30, _⟩ => ⟨S1x1024, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S16x1024, .f32⟩
  | .hbm, ⟨35, _⟩ => ⟨S_, .f32⟩
  | .hbm, ⟨36, _⟩ => ⟨S16x1024, .f32⟩
  | .hbm, ⟨37, _⟩ => ⟨S16x1024, .f32⟩
  | .hbm, ⟨38, _⟩ => ⟨S_, .f32⟩
  | .hbm, ⟨39, _⟩ => ⟨S16x1024, .f32⟩
  | .hbm, ⟨40, _⟩ => ⟨S16x1024, .f32⟩
  | .hbm, ⟨41, _⟩ => ⟨S16x4x256, .f32⟩
  | .hbm, ⟨42, _⟩ => ⟨S16x256x128x128, .f32⟩
  | .local _ .vmem, ⟨0, _⟩ => ⟨S1x128x128x128, .f32⟩
  | .local _ .vmem, ⟨1, _⟩ => ⟨S1x128x128x128, .f32⟩
  | .local _ .vmem, ⟨2, _⟩ => ⟨S1x4x128, .f32⟩
  | .local _ .vmem, ⟨3, _⟩ => ⟨S1x4x128, .f32⟩
  | .local _ .vmem, ⟨4, _⟩ => ⟨S1x128x128x128, .f32⟩
  | .local _ .vmem, ⟨5, _⟩ => ⟨S1x128x128x128, .f32⟩
  | .local _ .vmem, ⟨6, _⟩ => ⟨S1x4x128, .f32⟩
  | .local _ .vmem, ⟨7, _⟩ => ⟨S1x4x128, .f32⟩
  | .local _ .vmem, ⟨8, _⟩ => ⟨S1x128x128x128, .f32⟩
  | .local _ .vmem, ⟨9, _⟩ => ⟨S1x128x128x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_cst_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![16, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x128x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x128x128x128_S1x128x64x64_0_0_0_0 : ∀ a, (![0, 0, 0, 0] : Fin 4 → Nat) a + S1x128x64x64.size a ≤ S1x128x128x128.size a
  h_S1x128x64x64 : 0 < S1x128x64x64.numel
  inb_S1x128x128x128_S1x128x64x64_0_0_0_64 : ∀ a, (![0, 0, 0, 64] : Fin 4 → Nat) a + S1x128x64x64.size a ≤ S1x128x128x128.size a
  inb_S1x128x128x128_S1x128x64x64_0_0_64_0 : ∀ a, (![0, 0, 64, 0] : Fin 4 → Nat) a + S1x128x64x64.size a ≤ S1x128x128x128.size a
  inb_S1x128x128x128_S1x128x64x64_0_0_64_64 : ∀ a, (![0, 0, 64, 64] : Fin 4 → Nat) a + S1x128x64x64.size a ≤ S1x128x128x128.size a
  reduces_S1x128x64x64_S1x128x64 : S1x128x64x64.Reduces [3] S1x128x64
  reduces_S1x128x64_S1x128 : S1x128x64.Reduces [2] S1x128
  shapeCasts_S1x128_S128 : S1x128.ShapeCasts S128
  inb_S1x4x128_S1x1x128_0_0_0 : ∀ a, (![0, 0, 0] : Fin 3 → Nat) a + S1x1x128.size a ≤ S1x4x128.size a
  h_S1x1x128 : 0 < S1x1x128.numel
  shapeCasts_S1x1x128_S128 : S1x1x128.ShapeCasts S128
  shapeCasts_S128_S1x1x128 : S128.ShapeCasts S1x1x128
  inb_S1x4x128_S1x1x128_0_1_0 : ∀ a, (![0, 1, 0] : Fin 3 → Nat) a + S1x1x128.size a ≤ S1x4x128.size a
  inb_S1x4x128_S1x1x128_0_2_0 : ∀ a, (![0, 2, 0] : Fin 3 → Nat) a + S1x1x128.size a ≤ S1x4x128.size a
  inb_S1x4x128_S1x1x128_0_3_0 : ∀ a, (![0, 3, 0] : Fin 3 → Nat) a + S1x1x128.size a ≤ S1x4x128.size a
  shapeCasts_S16x4x256_S16x1024 : S16x4x256.ShapeCasts S16x1024
  transposes_S256x1024_S1024x256_1_0 : S256x1024.Transposes [1, 0] S1024x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S16x256 : S_.BroadcastsInDim S16x256 (![] : Fin 0 → Fin S16x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S16x1024_0_1 : S1x1024.BroadcastsInDim S16x1024 (![0, 1] : Fin 2 → Fin S16x1024.rank)
  bcast_S_S16x1024 : S_.BroadcastsInDim S16x1024 (![] : Fin 0 → Fin S16x1024.rank)
  shapeCasts_S16x1024_S16x4x256 : S16x1024.ShapeCasts S16x4x256
  inb_S1x4x128_S1x4x128_0_0_0 : ∀ a, (![0, 0, 0] : Fin 3 → Nat) a + S1x4x128.size a ≤ S1x4x128.size a
  h_S1x4x128 : 0 < S1x4x128.numel
  shapeCasts_S1x4x128_S4x128 : S1x4x128.ShapeCasts S4x128
  slices_S4x128_o0_0_S1x128 : S4x128.Slices ![0, 0] S1x128
  shapeCasts_S128_S1x128x1x1 : S128.ShapeCasts S1x128x1x1
  shapeCasts_S1x128x1x1_S1x128x1x1 : S1x128x1x1.ShapeCasts S1x128x1x1
  broadcasts_S1x128x1x1_S1x128x64x64 : S1x128x1x1.Broadcasts S1x128x64x64
  slices_S4x128_o1_0_S1x128 : S4x128.Slices ![1, 0] S1x128
  slices_S4x128_o2_0_S1x128 : S4x128.Slices ![2, 0] S1x128
  slices_S4x128_o3_0_S1x128 : S4x128.Slices ![3, 0] S1x128
  dot_S16x1024_S1024x256_S16x256_1_0_0_1_n_n_wf : DotDims.WF S16x1024 S1024x256 S16x256 [1] [0] [0] [1] [] []
  dot_S16x256_S256x1024_S16x1024_1_0_0_1_n_n_wf : DotDims.WF S16x256 S256x1024 S16x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x128.size a ≤ S16x256x128x128.size a
  hwx0_0 : ∀ i : grid0.Coords, EltTy.bits .f32 = 32 ∨ (Rect.block (s := S16x256x128x128) S1x128x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x128.size a ≤ S16x4x256.size a
  hwx0_1 : ∀ i : grid0.Coords, EltTy.bits .f32 = 32 ∨ (Rect.block (s := S16x4x256) S1x4x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x128x128.size a ≤ S16x256x128x128.size a
  hwx1_0 : ∀ i : grid1.Coords, EltTy.bits .f32 = 32 ∨ (Rect.block (s := S16x256x128x128) S1x128x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4x128.size a ≤ S16x4x256.size a
  hwx1_1 : ∀ i : grid1.Coords, EltTy.bits .f32 = 32 ∨ (Rect.block (s := S16x4x256) S1x4x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x128x128.size a ≤ S16x256x128x128.size a
  hwx1_2 : ∀ i : grid1.Coords, EltTy.bits .f32 = 32 ∨ (Rect.block (s := S16x256x128x128) S1x128x128x128.size (cc1_transform_2 i) (hinb1_2 i)).WholeWords (EltTy.packing .f32)

variable [Facts₀]

def dot_S16x1024_S1024x256_S16x256_1_0_0_1_n_n : DotDims S16x1024 S1024x256 S16x256 where
  lhsContracting := [1]
  rhsContracting := [0]
  lhsNonContracting := [0]
  rhsNonContracting := [1]
  lhsBatch := []
  rhsBatch := []
  wf := dot_S16x1024_S1024x256_S16x256_1_0_0_1_n_n_wf
def dot_S16x256_S256x1024_S16x1024_1_0_0_1_n_n : DotDims S16x256 S256x1024 S16x1024 where
  lhsContracting := [1]
  rhsContracting := [0]
  lhsNonContracting := [0]
  rhsNonContracting := [1]
  lhsBatch := []
  rhsBatch := []
  wf := dot_S16x256_S256x1024_S16x1024_1_0_0_1_n_n_wf

abbrev win0_0 : Pipeline.Window sig grid0 :=
  Pipeline.Window.ofSpec (Memref.whole main_arg0) S1x128x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x128x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x4x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128x128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x256x128x128 : Shape := ⟨4, ![16, 256, 128, 128]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S16x256x64x64 : Shape := ⟨4, ![16, 256, 64, 64]⟩
abbrev S_ : Shape := ⟨0, ![]⟩
abbrev S16x256 : Shape := ⟨2, ![16, 256]⟩
abbrev S16x1024 : Shape := ⟨2, ![16, 1024]⟩
abbrev S1x256 : Shape := ⟨2, ![1, 256]⟩
abbrev S1x1024 : Shape := ⟨2, ![1, 1024]⟩
abbrev S16x4x256 : Shape := ⟨3, ![16, 4, 256]⟩
abbrev S16x4x256x1x1 : Shape := ⟨5, ![16, 4, 256, 1, 1]⟩
abbrev S16x1x256x1x1 : Shape := ⟨5, ![16, 1, 256, 1, 1]⟩
abbrev S16x256x1x1 : Shape := ⟨4, ![16, 256, 1, 1]⟩
abbrev S16x256x64x128 : Shape := ⟨4, ![16, 256, 64, 128]⟩

abbrev nBuf : Space → Nat
  | .hbm => 85
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S256x1024, .f32⟩
  | .hbm, ⟨2, _⟩ => ⟨S256, .f32⟩
  | .hbm, ⟨3, _⟩ => ⟨S1024x256, .f32⟩
  | .hbm, ⟨4, _⟩ => ⟨S1024, .f32⟩
  | .hbm, ⟨5, _⟩ => ⟨S16x256x64x64, .f32⟩
  | .hbm, ⟨6, _⟩ => ⟨S16x256x64x64, .f32⟩
  | .hbm, ⟨7, _⟩ => ⟨S16x256x64x64, .f32⟩
  | .hbm, ⟨8, _⟩ => ⟨S16x256x64x64, .f32⟩
  | .hbm, ⟨9, _⟩ => ⟨S_, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S_, .f32⟩
  | .hbm, ⟨15, _⟩ => ⟨S16x256, .f32⟩
  | .hbm, ⟨16, _⟩ => ⟨S_, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S_, .f32⟩
  | .hbm, ⟨22, _⟩ => ⟨S16x256, .f32⟩
  | .hbm, ⟨23, _⟩ => ⟨S16x256, .f32⟩
  | .hbm, ⟨24, _⟩ => ⟨S_, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x1024, .f32⟩
  | .hbm, ⟨30, _⟩ => ⟨S1024x256, .f32⟩
  | .hbm, ⟨31, _⟩ => ⟨S16x256, .f32⟩
  | .hbm, ⟨32, _⟩ => ⟨S1x256, .f32⟩
  | .hbm, ⟨33, _⟩ => ⟨S16x256, .f32⟩
  | .hbm, ⟨34, _⟩ => ⟨S16x256, .f32⟩
  | .hbm, ⟨35, _⟩ => ⟨S_, .f32⟩
  | .hbm, ⟨36, _⟩ => ⟨S16x256, .f32⟩
  | .hbm, ⟨37, _⟩ => ⟨S16x256, .f32⟩
  | .hbm, ⟨38, _⟩ => ⟨S16x256, .f32⟩
  | .hbm, ⟨39, _⟩ => ⟨S16x256, .f32⟩
  | .hbm, ⟨40, _⟩ => ⟨S16x256, .i1⟩
  | .hbm, ⟨41, _⟩ => ⟨S16x256, .f32⟩
  | .hbm, ⟨42, _⟩ => ⟨S16x256, .f32⟩
  | .hbm, ⟨43, _⟩ => ⟨S16x256, .f32⟩
  | .hbm, ⟨44, _⟩ => ⟨S16x256, .f32⟩
  | .hbm, ⟨45, _⟩ => ⟨S16x256, .f32⟩
  | .hbm, ⟨46, _⟩ => ⟨S16x256, .f32⟩
  | .hbm, ⟨47, _⟩ => ⟨S16x256, .f32⟩
  | .hbm, ⟨48, _⟩ => ⟨S16x256, .f32⟩
  | .hbm, ⟨49, _⟩ => ⟨S16x256, .f32⟩
  | .hbm, ⟨50, _⟩ => ⟨S16x256, .f32⟩
  | .hbm, ⟨51, _⟩ => ⟨S256x1024, .f32⟩
  | .hbm, ⟨52, _⟩ => ⟨S16x1024, .f32⟩
  | .hbm, ⟨53, _⟩ => ⟨S1x1024, .f32⟩
  | .hbm, ⟨54, _⟩ => ⟨S16x1024, .f32⟩
  | .hbm, ⟨55, _⟩ => ⟨S16x1024, .f32⟩
  | .hbm, ⟨56, _⟩ => ⟨S16x1024, .f32⟩
  | .hbm, ⟨57, _⟩ => ⟨S16x1024, .f32⟩
  | .hbm, ⟨58, _⟩ => ⟨S_, .f32⟩
  | .hbm, ⟨59, _⟩ => ⟨S16x1024, .f32⟩
  | .hbm, ⟨60, _⟩ => ⟨S16x1024, .f32⟩
  | .hbm, ⟨61, _⟩ => ⟨S_, .f32⟩
  | .hbm, ⟨62, _⟩ => ⟨S16x1024, .f32⟩
  | .hbm, ⟨63, _⟩ => ⟨S16x1024, .f32⟩
  | .hbm, ⟨64, _⟩ => ⟨S16x4x256, .f32⟩
  | .hbm, ⟨65, _⟩ => ⟨S16x4x256x1x1, .f32⟩
  | .hbm, ⟨66, _⟩ => ⟨S16x1x256x1x1, .f32⟩
  | .hbm, ⟨67, _⟩ => ⟨S16x256x1x1, .f32⟩
  | .hbm, ⟨68, _⟩ => ⟨S16x256x64x64, .f32⟩
  | .hbm, ⟨69, _⟩ => ⟨S16x256x64x64, .f32⟩
  | .hbm, ⟨70, _⟩ => ⟨S16x1x256x1x1, .f32⟩
  | .hbm, ⟨71, _⟩ => ⟨S16x256x1x1, .f32⟩
  | .hbm, ⟨72, _⟩ => ⟨S16x256x64x64, .f32⟩
  | .hbm, ⟨73, _⟩ => ⟨S16x256x64x64, .f32⟩
  | .hbm, ⟨74, _⟩ => ⟨S16x256x64x128, .f32⟩
  | .hbm, ⟨75, _⟩ => ⟨S16x1x256x1x1, .f32⟩
  | .hbm, ⟨76, _⟩ => ⟨S16x256x1x1, .f32⟩
  | .hbm, ⟨77, _⟩ => ⟨S16x256x64x64, .f32⟩
  | .hbm, ⟨78, _⟩ => ⟨S16x256x64x64, .f32⟩
  | .hbm, ⟨79, _⟩ => ⟨S16x1x256x1x1, .f32⟩
  | .hbm, ⟨80, _⟩ => ⟨S16x256x1x1, .f32⟩
  | .hbm, ⟨81, _⟩ => ⟨S16x256x64x64, .f32⟩
  | .hbm, ⟨82, _⟩ => ⟨S16x256x64x64, .f32⟩
  | .hbm, ⟨83, _⟩ => ⟨S16x256x64x128, .f32⟩
  | .hbm, ⟨84, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_cst_6 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_7 : Ref sig .tc := ⟨.hbm, 58, rfl⟩
abbrev main_v32 : Ref sig .tc := ⟨.hbm, 59, rfl⟩
abbrev main_v33 : Ref sig .tc := ⟨.hbm, 60, rfl⟩
abbrev main_cst_8 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩

abbrev nD : Nat := 1
abbrev τ : Topo := Topo.v7x

variable {F : FTy → Type} [FloatOps F]

class Facts₀ : Prop where
  slices_S16x256x128x128_S16x256x64x64_0_0_0_0 : S16x256x128x128.Slices ![0, 0, 0, 0] S16x256x64x64
  slices_S16x256x128x128_S16x256x64x64_0_0_0_64 : S16x256x128x128.Slices ![0, 0, 0, 64] S16x256x64x64
  slices_S16x256x128x128_S16x256x64x64_0_0_64_0 : S16x256x128x128.Slices ![0, 0, 64, 0] S16x256x64x64
  slices_S16x256x128x128_S16x256x64x64_0_0_64_64 : S16x256x128x128.Slices ![0, 0, 64, 64] S16x256x64x64
  reducesTo_S16x256x64x64_S16x256_d2_3 : S16x256x64x64.ReducesTo [2, 3] S16x256
  h_S_ : 0 < S_.numel
  bcast_S_S16x256 : S_.BroadcastsInDim S16x256 (![] : Fin 0 → Fin S16x256.rank)
  concatenates_S16x256_S16x256_S16x256_S16x256_S16x1024_d1 : Shape.Concatenates [S16x256, S16x256, S16x256, S16x256] S16x1024 1
  transposes_S256x1024_S1024x256_1_0 : S256x1024.Transposes [1, 0] S1024x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S16x1024_0_1 : S1x1024.BroadcastsInDim S16x1024 (![0, 1] : Fin 2 → Fin S16x1024.rank)
  bcast_S_S16x1024 : S_.BroadcastsInDim S16x1024 (![] : Fin 0 → Fin S16x1024.rank)
  shapeCasts_S16x1024_S16x4x256 : S16x1024.ShapeCasts S16x4x256
  bcast_S16x4x256_S16x4x256x1x1_0_1_2 : S16x4x256.BroadcastsInDim S16x4x256x1x1 (![0, 1, 2] : Fin 3 → Fin S16x4x256x1x1.rank)
  slices_S16x4x256x1x1_S16x1x256x1x1_0_0_0_0_0 : S16x4x256x1x1.Slices ![0, 0, 0, 0, 0] S16x1x256x1x1
  shapeCasts_S16x1x256x1x1_S16x256x1x1 : S16x1x256x1x1.ShapeCasts S16x256x1x1
  bcast_S16x256x1x1_S16x256x64x64_0_1_2_3 : S16x256x1x1.BroadcastsInDim S16x256x64x64 (![0, 1, 2, 3] : Fin 4 → Fin S16x256x64x64.rank)
  slices_S16x4x256x1x1_S16x1x256x1x1_0_1_0_0_0 : S16x4x256x1x1.Slices ![0, 1, 0, 0, 0] S16x1x256x1x1
  concatenates_S16x256x64x64_S16x256x64x64_S16x256x64x128_d3 : Shape.Concatenates [S16x256x64x64, S16x256x64x64] S16x256x64x128 3
  slices_S16x4x256x1x1_S16x1x256x1x1_0_2_0_0_0 : S16x4x256x1x1.Slices ![0, 2, 0, 0, 0] S16x1x256x1x1
  slices_S16x4x256x1x1_S16x1x256x1x1_0_3_0_0_0 : S16x4x256x1x1.Slices ![0, 3, 0, 0, 0] S16x1x256x1x1
  concatenates_S16x256x64x128_S16x256x64x128_S16x256x128x128_d2 : Shape.Concatenates [S16x256x64x128, S16x256x64x128] S16x256x128x128 2
  dot_S16x1024_S1024x256_S16x256_1_0_0_1_n_n_wf : DotDims.WF S16x1024 S1024x256 S16x256 [1] [0] [0] [1] [] []
  dot_S16x256_S256x1024_S16x1024_1_0_0_1_n_n_wf : DotDims.WF S16x256 S256x1024 S16x1024 [1] [0] [0] [1] [] []

variable [Facts₀]

def dot_S16x1024_S1024x256_S16x256_1_0_0_1_n_n : DotDims S16x1024 S1024x256 S16x256 where
  lhsContracting := [1]
  rhsContracting := [0]
  lhsNonContracting := [0]
  rhsNonContracting := [1]
  lhsBatch := []
  rhsBatch := []
  wf := dot_S16x1024_S1024x256_S16x256_1_0_0_1_n_n_wf
def dot_S16x256_S256x1024_S16x1024_1_0_0_1_n_n : DotDims S16x256 S256x1024 S16x1024 where
  lhsContracting := [1]
  rhsContracting := [0]
  lhsNonContracting := [0]
  rhsNonContracting := [1]
  lhsBatch := []
  rhsBatch := []
  wf := dot_S16x256_S256x1024_S16x1024_1_0_0_1_n_n_wf

class Facts : Prop extends Facts₀ where

variable [Facts]
-- ==== Proof.HostChain.lean ====
/-
  The host stretch between the two pallas_calls, read as one function.  From the [16, 4, 256] means it makes the
  gate: the means laid flat, times the transposed reduce weights plus their bias (`squeeze`), through mish
  (x · tanh(softplus x), `softplus` with the host's own guard), times the transposed expand weights plus their
  bias, through the logistic 1 / (1 + exp(−·)), laid back as [16, 4, 256] (`gateOf`).  The reference applies the
  very same operations to its own flat means, so the function is never opened: only what goes into it matters.
  Then the segment boundaries' contents: the gate's buffer when pallas_call 1 is entered is `gateOf` of pallas_call
  0's output array, and the first argument's buffer is as launched.
-/
import proofs.«178173_j55224689492532_1_alg».proof.Proof.Gen.KernelIdeal.Frame
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable {F : FTy → Type} [FloatOps F]

/-- The flat means times the transposed reduce weights, plus the reduce bias along every row. -/
def squeeze (flat : FVec F S16x1024 .f32) (w1 : FVec F S256x1024 .f32) (b1 : FVec F S256 .f32) : FVec F S16x256 .f32 :=
  addf (Host.dotGeneral dot_S16x1024_S1024x256_S16x256_1_0_0_1_n_n none flat (transpose S1024x256 [1, 0] w1 transposes_S256x1024_S1024x256_1_0))
    (broadcastInDim S16x256 ![0, 1] bcast_S1x256_S16x256_0_1 (broadcastInDim S1x256 ![1] bcast_S256_S1x256_1 b1))

/-- softplus as the host spells it: max(a, 0) + log1p(exp(−|a − 0|)), with a + 0 where a − 0 is not itself. -/
def softplus (a : FVec F S16x256 .f32) : FVec F S16x256 .f32 :=
  select (cmpf .une (subf a (broadcastInDim S16x256 ![] bcast_S_S16x256 (constant S_ .f32 0x00000000#32))) (subf a (broadcastInDim S16x256 ![] bcast_S_S16x256 (constant S_ .f32 0x00000000#32))))
    (addf a (broadcastInDim S16x256 ![] bcast_S_S16x256 (constant S_ .f32 0x00000000#32)))
    (addf (maximumf a (broadcastInDim S16x256 ![] bcast_S_S16x256 (constant S_ .f32 0x00000000#32)))
      (Host.log1p (Host.exp (Host.negf (Host.absf (subf a (broadcastInDim S16x256 ![] bcast_S_S16x256 (constant S_ .f32 0x00000000#32))))))))

/-- The gate from the flat means and the four weight arrays. -/
def gateOf (flat : FVec F S16x1024 .f32) (w1 : FVec F S256x1024 .f32) (b1 : FVec F S256 .f32)
    (w2 : FVec F S1024x256 .f32) (b2 : FVec F S1024 .f32) : FVec F S16x4x256 .f32 :=
  shapeCast S16x4x256
    (Host.divf (broadcastInDim S16x1024 ![] bcast_S_S16x1024 (constant S_ .f32 0x3F800000#32))
      (addf (broadcastInDim S16x1024 ![] bcast_S_S16x1024 (constant S_ .f32 0x3F800000#32))
        (Host.exp (Host.negf
          (addf (Host.dotGeneral dot_S16x256_S256x1024_S16x1024_1_0_0_1_n_n none
              (mulf (squeeze flat w1 b1) (Host.tanh (softplus (squeeze flat w1 b1))))
              (transpose S256x1024 [1, 0] w2 transposes_S1024x256_S256x1024_1_0))
            (broadcastInDim S16x1024 ![0, 1] bcast_S1x1024_S16x1024_0_1 (broadcastInDim S1x1024 ![1] bcast_S1024_S1x1024_1 b2)))))))
    shapeCasts_S16x1024_S16x4x256

variable (m : (ℓ : Loc nD τ sig) → Buf (Elt F) ℓ) (ρ : Dev nD → PrngReg)

set_option maxHeartbeats 8000000 in
/-- When pallas_call 1 is entered the gate's buffer holds `gateOf` of the first call's output array laid flat and
    of the weight arrays as the first call left them. -/
theorem entry1_gate (c : Dev nD) :
    W4 m ρ c (Proc.devRef .tc main_v21)
      = gateOf (shapeCast S16x1024 (W1 m ρ c (Proc.devRef .tc main_v0)) shapeCasts_S16x4x256_S16x1024)
          (W1 m ρ c (Proc.devRef .tc main_arg1)) (W1 m ρ c (Proc.devRef .tc main_arg2))
          (W1 m ρ c (Proc.devRef .tc main_arg3)) (W1 m ρ c (Proc.devRef .tc main_arg4)) := by
  dsimp only [W4, W3, W2, hostOps1, hostOps1_1, hostOps1_2]
  after_results_simp
  rfl

/-- When pallas_call 1 is entered the first argument's buffer is as launched: no host operation writes it and the
    first call only reads it. -/
theorem entry1_arg0 (c : Dev nD) : W4 m ρ c (Proc.devRef .tc main_arg0) = m ((c : Thread nD τ).loc main_arg0) :=
  ((W5_arr m ρ c 0).trans (((dat1 (V4 m ρ) c).arrAt_in 0 rfl _).trans (A_eq1 (V4 m ρ) c 0))).symm.trans (W5_main_arg0 m ρ c)

/-- When pallas_call 0 has run, its output array is what its write-backs leave. -/
theorem exit0_means (c : Dev nD) : W1 m ρ c (Proc.devRef .tc main_v0) = (dat0 (V0 m ρ) c).arrAt 1 cfg0.N :=
  W1_arr m ρ c 1

/-- When pallas_call 0 has run, the weight arrays are as launched: they are none of its arrays. -/
theorem exit0_arg1 (c : Dev nD) : W1 m ρ c (Proc.devRef .tc main_arg1) = m ((c : Thread nD τ).loc main_arg1) :=
  W1_of_ne m ρ c main_arg1 (by decide)
theorem exit0_arg2 (c : Dev nD) : W1 m ρ c (Proc.devRef .tc main_arg2) = m ((c : Thread nD τ).loc main_arg2) :=
  W1_of_ne m ρ c main_arg2 (by decide)
theorem exit0_arg3 (c : Dev nD) : W1 m ρ c (Proc.devRef .tc main_arg3) = m ((c : Thread nD τ).loc main_arg3) :=
  W1_of_ne m ρ c main_arg3 (by decide)
theorem exit0_arg4 (c : Dev nD) : W1 m ρ c (Proc.devRef .tc main_arg4) = m ((c : Thread nD τ).loc main_arg4) :=
  W1_of_ne m ρ c main_arg4 (by decide)

/-- When pallas_call 1 has run, the result array is what its write-backs leave. -/
theorem exit1_result (c : Dev nD) : W5 m ρ c (Proc.devRef .tc main_v22) = (dat1 (V4 m ρ) c).arrAt 2 cfg1.N :=
  W5_arr m ρ c 2

end Cert.KernelIdeal.Chain

end
-- ==== Proof.Spec.lean ====
/-
  The mathematics of this certificate, stated once over the extended reals and over literal shapes, with no
  program in sight.

  The input `t` is a [16, 256, 128, 128] array read as 16 × 256 images of 128 × 128, each cut into four
  64 × 64 quadrants, numbered q = 2·(row half) + (column half).  Two things are computed from it:

  * the mean of each quadrant, a [16, 4, 256] array.  It is spelt in two ways: the sum of a row divided by 64,
    those 64 quotients summed and divided by 64 again (`meanSeq`); or the sum of all 4096 entries divided by
    4096 (`meanJoint`).  Over the reals the two agree, because division by 64 distributes over a finite sum
    of reals; over the extended reals that distribution fails at infinities, so the law `meanSeq_eq_meanJoint`
    asks every entry of `t` to be a real.
  * the gated output: every entry of `t` times the gate entry of its image and quadrant (`gated`).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The input and output arrays' shape. -/
abbrev T4 : Shape := ⟨4, ![16, 256, 128, 128]⟩
/-- The per-quadrant arrays' shape (means, gate): image batch, quadrant, channel. -/
abbrev Q3 : Shape := ⟨3, ![16, 4, 256]⟩
/-- The same laid flat: column q·256 + c. -/
abbrev Q2 : Shape := ⟨2, ![16, 1024]⟩

/-- First row of quadrant `q`. -/
def rowOff (q : Fin 4) : Nat := 64 * (q.val / 2)
/-- First column of quadrant `q`. -/
def colOff (q : Fin 4) : Nat := 64 * (q.val % 2)

theorem rowOff_lt (q : Fin 4) (h : Fin 64) : rowOff q + h.val < 128 := by
  have := q.isLt; have := h.isLt; unfold rowOff; omega
theorem colOff_lt (q : Fin 4) (w : Fin 64) : colOff q + w.val < 128 := by
  have := q.isLt; have := w.isLt; unfold colOff; omega

/-- Entry (h, w) of quadrant `q` of image (b, c), as an index of the whole array. -/
def qix (b : Fin 16) (c : Fin 256) (q : Fin 4) (h w : Fin 64) : T4.Idx :=
  ix4 b c ⟨rowOff q + h.val, rowOff_lt q h⟩ ⟨colOff q + w.val, colOff_lt q w⟩

/-- The f32 literal 64.0. -/
def c64 : EReal := Ideal.ofBits .f32 0x42800000#32
/-- The f32 literal 4096.0. -/
def c4096 : EReal := Ideal.ofBits .f32 0x45800000#32
/-- The f32 literal 0.0, the initial value of a sum. -/
def c0 : EReal := Ideal.ofBits .f32 0x00000000#32

/-- A quadrant's mean taken one axis at a time: each row's sum over 64, those summed, over 64. -/
def meanSeq (t : T4.Idx → EReal) (b : Fin 16) (q : Fin 4) (c : Fin 256) : EReal :=
  Ideal.div (∑ h : Fin 64, Ideal.div (∑ w : Fin 64, t (qix b c q h w)) c64) c64

/-- A quadrant's mean taken jointly: the sum of its 4096 entries from the initial value 0.0, over 4096. -/
def meanJoint (t : T4.Idx → EReal) (b : Fin 16) (q : Fin 4) (c : Fin 256) : EReal :=
  Ideal.div (c0 + ∑ h : Fin 64, ∑ w : Fin 64, t (qix b c q h w)) c4096

/-- The axis-by-axis means as a [16, 4, 256] array. -/
def meansSeq3 (t : T4.Idx → EReal) : Q3.Idx → EReal :=
  fun j => meanSeq t ⟨(j 0).val, (j 0).isLt⟩ ⟨(j 1).val, (j 1).isLt⟩ ⟨(j 2).val, (j 2).isLt⟩

theorem flat_q_lt (j : Q2.Idx) : (j 1).val / 256 < 4 := by
  have h : (j 1).val < 1024 := (j 1).isLt; omega
theorem flat_c_lt (j : Q2.Idx) : (j 1).val % 256 < 256 := Nat.mod_lt _ (by norm_num)

/-- The joint means as a [16, 1024] array: column q·256 + c holds quadrant q of channel c. -/
def meansJoint2 (t : T4.Idx → EReal) : Q2.Idx → EReal :=
  fun j => meanJoint t ⟨(j 0).val, (j 0).isLt⟩ ⟨(j 1).val / 256, flat_q_lt j⟩ ⟨(j 1).val % 256, flat_c_lt j⟩

/-- The axis-by-axis means laid flat the same way. -/
def meansSeq2 (t : T4.Idx → EReal) : Q2.Idx → EReal :=
  fun j => meanSeq t ⟨(j 0).val, (j 0).isLt⟩ ⟨(j 1).val / 256, flat_q_lt j⟩ ⟨(j 1).val % 256, flat_c_lt j⟩

theorem quad_lt (h w : Nat) (hh : h < 128) (hw : w < 128) : 2 * (h / 64) + w / 64 < 4 := by omega

/-- The quadrant an entry (h, w) of an image lies in. -/
def quadOf (h w : Fin 128) : Fin 4 := ⟨2 * (h.val / 64) + w.val / 64, quad_lt h.val w.val h.isLt w.isLt⟩

/-- The gated output: entry (b, c, h, w) of `t` times the gate of image b, the entry's quadrant, channel c. -/
def gated (t : T4.Idx → EReal) (g : Q3.Idx → EReal) : T4.Idx → EReal :=
  fun i => t i * g (ix3 ⟨(i 0).val, (i 0).isLt⟩ (quadOf ⟨(i 2).val, (i 2).isLt⟩ ⟨(i 3).val, (i 3).isLt⟩) ⟨(i 1).val, (i 1).isLt⟩)

end Cert.Spec

end
-- ==== Proof.MeansRegion.lean ====
/-
  The first call's output array, read as one function of its input array.

  The input t is a [16, 256, 128, 128] array; grid point (b, cb) stages the block of images b, channels
  cb·128 … cb·128 + 127, and leaves a [1, 4, 128] block: row q holds, for each of the 128 channels, the mean of
  quadrant q of the image, taken one axis at a time (each row's sum over 64, those 64 quotients summed, over 64).
  The 32 output blocks tile the [16, 4, 256] means array, so after the call the array holds at (b, q, ch) the
  axis-by-axis mean of quadrant q of image (b, ch).

  The steps: each store's payload at an index (two sums over one axis, two divisions by 64.0, two changes of
  layout); the four stores together as one function of the block index; the input block's entries as entries of
  the array; the blocks' cover of the array.
-/
import proofs.«178173_j55224689492532_1_alg».proof.Proof.Gen.KernelIdeal.Frame
import proofs.«178173_j55224689492532_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.MeansRegion

open Cert.KernelIdeal Cert.KernelIdeal.Gen Idealize.ShloMosaic Idealize.ShloMosaic.TcCoe Idealize.ShloMosaic.ValueIdx Idealize.SL.Sem
open Idealize.ShloMosaic.Pipeline (Dat Cfg Window)

/-- The sum over the last axis of a [1,128,64,64] block, at (0, p, h): the sum of row h of image p. -/
theorem rowSum_apply (x : FVec Ideal S1x128x64x64 .f32) (p : Fin 128) (h : Fin 64) :
    multiReduction .add [3] S1x128x64 x 0x00000000#32 reduces_S1x128x64x64_S1x128x64 (.inl rfl) rfl (ix3 (0 : Fin 1) p h)
      = ∑ w : Fin 64, x (ix4 (0 : Fin 1) p h w) := by
  refine (Ideal.multiReduction_add_single x 0x00000000#32 reduces_S1x128x64x64_S1x128x64 (.inl rfl) rfl (ix3 (0 : Fin 1) p h)).trans ?_
  show ∑ w : Fin 64, x (reduces_S1x128x64x64_S1x128x64.lift (ix3 (0 : Fin 1) p h) w) = _
  refine Finset.sum_congr rfl fun w _ => congrArg x ?_
  funext a; apply Fin.ext
  match a with
  | ⟨0, _⟩ => rfl
  | ⟨1, _⟩ => rfl
  | ⟨2, _⟩ => rfl
  | ⟨3, _⟩ => rfl

/-- The sum over the last axis of a [1,128,64] array, at (0, p): the sum over h of the entries (0, p, h). -/
theorem colSum_apply (y : FVec Ideal S1x128x64 .f32) (p : Fin 128) :
    multiReduction .add [2] S1x128 y 0x00000000#32 reduces_S1x128x64_S1x128 (.inl rfl) rfl (ix2 (0 : Fin 1) p)
      = ∑ h : Fin 64, y (ix3 (0 : Fin 1) p h) := by
  refine (Ideal.multiReduction_add_single y 0x00000000#32 reduces_S1x128x64_S1x128 (.inl rfl) rfl (ix2 (0 : Fin 1) p)).trans ?_
  show ∑ h : Fin 64, y (reduces_S1x128x64_S1x128.lift (ix2 (0 : Fin 1) p) h) = _
  refine Finset.sum_congr rfl fun h _ => congrArg y ?_
  funext a; apply Fin.ext
  match a with
  | ⟨0, _⟩ => rfl
  | ⟨1, _⟩ => rfl
  | ⟨2, _⟩ => rfl

/-- A [128] vector laid as [1,1,128] reads, at (0, 0, p), its entry p. -/
theorem cast_a_11a_apply (v : FVec Ideal S128 .f32) (p : Fin 128) :
    shapeCast S1x1x128 v shapeCasts_S128_S1x1x128 (ix3 (0 : Fin 1) (0 : Fin 1) p) = v (ix1 p) :=
  shapeCast_apply v shapeCasts_S128_S1x1x128 _ _ (by
    rw [Shape.rowMajor_val_one, Shape.rowMajor_val_three]
    show p.val = (0 * 1 + 0) * 128 + p.val
    omega)

/-- The first store's payload at (0, 0, p): the mean, axis by axis, of the 64 × 64 block of image p. -/
theorem pay3_apply (x : FVec Ideal S1x128x64x64 .f32) (p : Fin 128) :
    k0_pay3 (F := Ideal) x (ix3 (0 : Fin 1) (0 : Fin 1) p)
      = Ideal.div (∑ h : Fin 64, Ideal.div (∑ w : Fin 64, x (ix4 (0 : Fin 1) p h w)) Spec.c64) Spec.c64 := by
  unfold k0_pay3
  refine (cast_a_11a_apply _ p).trans ?_
  refine (shapeCast_1a_a_apply _ shapeCasts_S1x128_S128 p).trans ?_
  rw [divf_apply, broadcast_apply]
  refine congrArg (fun z => Ideal.div z Spec.c64) ?_
  refine (colSum_apply _ p).trans ?_
  refine Finset.sum_congr rfl fun h _ => ?_
  rw [divf_apply, broadcast_apply]
  exact congrArg (fun z => Ideal.div z Spec.c64) (rowSum_apply x p h)

/-- The second store's payload is the same function of its 64 × 64 sub-blocks as the first's. -/
theorem pay4_eq : k0_pay4 (F := Ideal) = k0_pay3 := rfl
/-- So is the fourth store's. -/
theorem pay2_eq : k0_pay2 (F := Ideal) = k0_pay3 := rfl
/-- So is the third store's, whose row sums are taken first and the rest after. -/
theorem pay15_eq (x : FVec Ideal S1x128x64x64 .f32) : k0_pay1 (F := Ideal) (k0_pay5 (F := Ideal) x) = k0_pay3 (F := Ideal) x := rfl

/-- A unit coordinate is zero. -/
theorem fin_one_eq (a : Fin 1) : a = 0 := Fin.ext (by omega)

/-- The four quadrant means of a [1,128,128,128] block as a [1,4,128] array: at (0, q, p) the mean, axis by
    axis, of quadrant q of image p of the block. -/
def blockMeans (X : S1x128x128x128.Idx → EReal) : S1x4x128.Idx → EReal := fun y =>
  Ideal.div (∑ h : Fin 64, Ideal.div (∑ w : Fin 64,
    X (ix4 (0 : Fin 1) (⟨(y 2).val, (y 2).isLt⟩ : Fin 128)
        (⟨Spec.rowOff ⟨(y 1).val, (y 1).isLt⟩ + h.val, Spec.rowOff_lt _ h⟩ : Fin 128)
        (⟨Spec.colOff ⟨(y 1).val, (y 1).isLt⟩ + w.val, Spec.colOff_lt _ w⟩ : Fin 128))) Spec.c64) Spec.c64

/-- The payload over the 64 × 64 sub-block at offsets (oh, ow), stored as row q of the [1,4,128] block, is
    row q of the block's quadrant means when (oh, ow) is quadrant q's corner. -/
theorem piece_apply (X : S1x128x128x128.Idx → EReal) (oh ow q : Nat)
    (inbL : ∀ a, (![0, 0, oh, ow] : Fin 4 → Nat) a + S1x128x64x64.size a ≤ S1x128x128x128.size a)
    (inbS : ∀ a, (![0, q, 0] : Fin 3 → Nat) a + S1x1x128.size a ≤ S1x4x128.size a)
    (hoh : oh = 64 * (q / 2)) (how : ow = 64 * (q % 2)) (x : S1x1x128.Idx) :
    k0_pay3 (F := Ideal) (View.ld X (Rect.unit (s := S1x128x128x128) ![0, 0, oh, ow] S1x128x64x64.size inbL)) x
      = blockMeans X ((Rect.unit (s := S1x4x128) ![0, q, 0] S1x1x128.size inbS).emb x) := by
  obtain ⟨p, rfl⟩ : ∃ p : Fin 128, x = ix3 (0 : Fin 1) (0 : Fin 1) p :=
    ⟨x 2, (eq_ix3 x).trans (congrArg₂ (fun a b => ix3 a b (x 2)) (fin_one_eq (x 0)) (fin_one_eq (x 1)))⟩
  refine (pay3_apply _ p).trans ?_
  unfold blockMeans
  refine congrArg (fun z => Ideal.div z Spec.c64) (Finset.sum_congr rfl fun h _ =>
    congrArg (fun z => Ideal.div z Spec.c64) (Finset.sum_congr rfl fun w _ => ?_))
  refine congrArg X (funext fun a => Fin.ext ?_)
  match a with
  | ⟨0, _⟩ => rfl
  | ⟨1, _⟩ => show 0 + 1 * p.val = 0 + 1 * p.val; rfl
  | ⟨2, _⟩ => show oh + 1 * h.val = 64 * ((q + 1 * 0) / 2) + h.val; omega
  | ⟨3, _⟩ => show ow + 1 * w.val = 64 * ((q + 1 * 0) % 2) + w.val; omega

/-- What the body leaves in the output block is the quadrant means of its input block. -/
theorem out_block (X : Vec Ideal S1x128x128x128 .f32) (y : S1x4x128.Idx) :
    out0_1 (F := Ideal) X y = blockMeans X y := by
  unfold out0_1
  refine View.canon_apply_of_pieces (Val := Elt Ideal) (e := .f32) (blockMeans X) _ ?_ y (cover0_1 _ _ _ _ y)
  intro pc hpc x
  simp only [List.mem_cons, List.not_mem_nil, or_false] at hpc
  rcases hpc with rfl | rfl | rfl | rfl
  · exact (congrFun (congrFun pay2_eq _) x).trans (piece_apply X 64 64 3 inb_S1x128x128x128_S1x128x64x64_0_0_64_64 inb_S1x4x128_S1x1x128_0_3_0 rfl rfl x)
  · exact (congrFun (pay15_eq _) x).trans (piece_apply X 64 0 2 inb_S1x128x128x128_S1x128x64x64_0_0_64_0 inb_S1x4x128_S1x1x128_0_2_0 rfl rfl x)
  · exact (congrFun (congrFun pay4_eq _) x).trans (piece_apply X 0 64 1 inb_S1x128x128x128_S1x128x64x64_0_0_0_64 inb_S1x4x128_S1x1x128_0_1_0 rfl rfl x)
  · exact piece_apply X 0 0 0 inb_S1x128x128x128_S1x128x64x64_0_0_0_0 inb_S1x4x128_S1x1x128_0_0_0 rfl rfl x

/-- The printed index maps, decided over the grid: the input block of a point sits at (b, cb, 0, 0), its
    output block at (b, 0, cb), with b below 16 and cb below 2. -/
theorem idx_facts : ∀ t : Fin cfg0.N,
    win0_0.index t (0 : Fin 4) = win0_1.index t (0 : Fin 3)
    ∧ win0_0.index t (1 : Fin 4) = win0_1.index t (2 : Fin 3)
    ∧ win0_0.index t (2 : Fin 4) = 0 ∧ win0_0.index t (3 : Fin 4) = 0
    ∧ win0_1.index t (1 : Fin 3) = 0
    ∧ win0_1.index t (0 : Fin 3) ≤ 15 ∧ win0_1.index t (2 : Fin 3) ≤ 1 :=
  (by decide +kernel : ∀ t : Fin grid0.N, _)

/-- Every output block is some point's. -/
theorem idx_onto : ∀ (b : Fin 16) (cb : Fin 2), ∃ t : Fin cfg0.N, win0_1.index t = ![b.val, 0, cb.val] :=
  (by decide +kernel : ∀ (b : Fin 16) (cb : Fin 2), ∃ t : Fin grid0.N, win0_1.index t = ![b.val, 0, cb.val])

section Region
variable (V : (c : Dev nD) → (b : Ref sig .tc) → Buf (Elt Ideal) ((c : Thread nD τ).loc b))

/-- What point t writes back is its block of the axis-by-axis quadrant means of the input array. -/
theorem flushed_eq (c : Dev nD) (t : Fin cfg0.N) :
    (dat0 (F := Ideal) V c).flushed 1 t
      = ((cfg0.win 1).blk t).view.read (Elt Ideal) (Spec.meansSeq3 (V c main_arg0)) := by
  show (cfg0.win 1).cut (grid0.coords t) ((dat0 (F := Ideal) V c).after 1 t) = _
  rw [after0_1]
  obtain ⟨e0, e1, e2, e3, e4, e5, e6⟩ := idx_facts t
  funext y
  show out0_1 (F := Ideal) (iblk0 V c 0 t) ((cfg0.win 1).xinj (grid0.coords t) y)
    = Spec.meansSeq3 (V c main_arg0) (((cfg0.win 1).blk t).view.emb y)
  refine (out_block _ _).trans ?_
  unfold blockMeans Spec.meansSeq3 Spec.meanSeq
  refine congrArg (fun z => Ideal.div z Spec.c64) (Finset.sum_congr rfl fun h _ =>
    congrArg (fun z => Ideal.div z Spec.c64) (Finset.sum_congr rfl fun w _ => ?_))
  show V c main_arg0 (((cfg0.win 0).blk t).view.emb _) = V c main_arg0 _
  refine congrArg (V c main_arg0) (funext fun a => Fin.ext ?_)
  have hy0 : (y 0).val < 1 := (y 0).isLt
  have hy1 : (y 1).val < 4 := (y 1).isLt
  have hy2 : (y 2).val < 128 := (y 2).isLt
  match a with
  | ⟨0, _⟩ =>
    show win0_0.index t (0 : Fin 4) * 1 + 1 * 0 = win0_1.index t (0 : Fin 3) * 1 + 1 * (y 0).val
    omega
  | ⟨1, _⟩ =>
    show win0_0.index t (1 : Fin 4) * 128 + 1 * (y 2).val = win0_1.index t (2 : Fin 3) * 128 + 1 * (y 2).val
    omega
  | ⟨2, _⟩ =>
    show win0_0.index t (2 : Fin 4) * 128 + 1 * (64 * ((y 1).val / 2) + h.val)
      = 64 * ((win0_1.index t (1 : Fin 3) * 4 + 1 * (y 1).val) / 2) + h.val
    omega
  | ⟨3, _⟩ =>
    show win0_0.index t (3 : Fin 4) * 128 + 1 * (64 * ((y 1).val % 2) + w.val)
      = 64 * ((win0_1.index t (1 : Fin 3) * 4 + 1 * (y 1).val) % 2) + w.val
    omega
end Region

/-- An index of the means array is in point t's block iff each coordinate is in the block's range on its axis. -/
theorem mem_blk (t : Fin cfg0.N) (i : S16x4x256.Idx) :
    i ∈ ((cfg0.win 1).blk t).view.set ↔ ∀ a : Fin 3, win0_1.index t a * S1x4x128.size a ≤ (i a).val
      ∧ (i a).val < win0_1.index t a * S1x4x128.size a + S1x4x128.size a := by
  show i ∈ ((View.whole main_v0).slice (win0_1.rect t)).set ↔ _
  rw [View.set_slice_whole, Rect.mem_set_unit]
  exact Iff.rfl

/-- The output blocks tile the means array: entry (b, q, ch) lies in the block of the point (b, ch / 128). -/
theorem covered (i : S16x4x256.Idx) :
    ∃ t : Fin cfg0.N, (cfg0.win 1).flush t = true ∧ i ∈ ((cfg0.win 1).blk t).view.set := by
  have hi0 : (i 0).val < 16 := (i 0).isLt
  have hi1 : (i 1).val < 4 := (i 1).isLt
  have hi2 : (i 2).val < 256 := (i 2).isLt
  obtain ⟨t, ht⟩ := idx_onto ⟨(i 0).val, hi0⟩ ⟨(i 2).val / 128, by omega⟩
  have q0 : win0_1.index t (0 : Fin 3) = (i 0).val := congrFun ht 0
  have q1 : win0_1.index t (1 : Fin 3) = 0 := congrFun ht 1
  have q2 : win0_1.index t (2 : Fin 3) = (i 2).val / 128 := congrFun ht 2
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 4 ≤ (i 1).val ∧ (i 1).val < win0_1.index t (1 : Fin 3) * 4 + 4
    omega
  | ⟨2, _⟩ =>
    show win0_1.index t (2 : Fin 3) * 128 ≤ (i 2).val ∧ (i 2).val < win0_1.index t (2 : Fin 3) * 128 + 128
    omega

section Array
variable (V : (c : Dev nD) → (b : Ref sig .tc) → Buf (Elt Ideal) ((c : Thread nD τ).loc b))

/-- After the first call has run from region-entry contents V, its output array holds at (b, q, ch) the
    axis-by-axis mean of quadrant q of image (b, ch) of the input array. -/
theorem means_array (c : Dev nD) :
    (Gen.dat0 (F := Ideal) V c).arrAt 1 cfg0.N = Cert.Spec.meansSeq3 (V c main_arg0) :=
  (dat0 (F := Ideal) V c).arrAt_eq_of_cover 1 _ (fun t _ => flushed_eq V c t) covered
end Array

end Cert.KernelIdeal.MeansRegion

end
-- ==== Proof.GateRegion.lean ====
import proofs.«178173_j55224689492532_1_alg».proof.Proof.Gen.KernelIdeal.Frame
import proofs.«178173_j55224689492532_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
  The gated multiply, kernel side, over the extended reals.

  The second pipelined call walks the [16, 256, 128, 128] input in blocks of one image batch and 128 channels.
  In each block it multiplies the four 64 × 64 quadrants of every image by the matching row of the [1, 4, 128]
  gate block, broadcast over the quadrant. Read entry by entry, the block it leaves is the input block times the
  gate entry of the entry's quadrant and channel; the blocks tile the output array, so the array ends holding
  every entry of the input times the gate of its image, quadrant and channel.
-/

noncomputable section

namespace Cert.KernelIdeal.GateRegion

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The body's products at an index -/

/-- Row `q` of the [1,4,128] gate block, cut out, recast to [1,128,1,1] and broadcast over a 64 × 64
    quadrant, reads the gate's entry (0, q, p) at every (0, p, h, w). -/
theorem gateRow_apply (q : Nat) (hq : q < 4) (g : FVec Ideal S1x4x128 .f32) (hs : S4x128.Slices ![q, 0] S1x128)
    (p : Fin 128) (h w : Fin 64) :
    broadcastTo S1x128x64x64
      (shapeCast S1x128x1x1
        (shapeCast S1x128x1x1
          (shapeCast S128 (extractStridedSlice S1x128 ![q, 0] (shapeCast S4x128 g shapeCasts_S1x4x128_S4x128) hs)
            shapeCasts_S1x128_S128) shapeCasts_S128_S1x128x1x1) shapeCasts_S1x128x1x1_S1x128x1x1)
      broadcasts_S1x128x1x1_S1x128x64x64 (ix4 (0 : Fin 1) p h w) = g (ix3 (0 : Fin 1) (⟨q, hq⟩ : Fin 4) p) := by
  rw [shapeCast_self]
  refine (broadcastTo_apply _ _ (ix4 (0 : Fin 1) p h w) (ix4 (0 : Fin 1) p (0 : Fin 1) (0 : Fin 1)) ?_).trans ?_
  · intro a
    match a with
    | ⟨0, _⟩ => rfl
    | ⟨1, _⟩ => rfl
    | ⟨2, _⟩ => rfl
    | ⟨3, _⟩ => rfl
  refine (shapeCast_apply _ _ (ix4 (0 : Fin 1) p (0 : Fin 1) (0 : Fin 1)) (ix1 p) ?_).trans ?_
  · rw [Shape.rowMajor_val_one, Shape.rowMajor_val_four]
    show p.val = ((0 * 128 + p.val) * 1 + 0) * 1 + 0
    omega
  refine (shapeCast_apply _ _ (ix1 p) (ix2 (0 : Fin 1) p) ?_).trans ?_
  · rw [Shape.rowMajor_val_two, Shape.rowMajor_val_one]
    show 0 * 128 + p.val = p.val
    omega
  refine (extractStridedSlice_apply _ _ _ (ix2 (0 : Fin 1) p) (ix2 (⟨q, hq⟩ : Fin 4) p) ?_).trans ?_
  · intro a
    match a with
    | ⟨0, _⟩ => show q = q + 0; omega
    | ⟨1, _⟩ => show p.val = 0 + p.val; omega
  refine (shapeCast_apply _ _ (ix2 (⟨q, hq⟩ : Fin 4) p) (ix3 (0 : Fin 1) (⟨q, hq⟩ : Fin 4) p) ?_)
  rw [Shape.rowMajor_val_three, Shape.rowMajor_val_two]
  show (0 * 4 + q) * 128 + p.val = q * 128 + p.val
  omega

/-- The first quadrant's product: the loaded quadrant times row 0 of the gate block. -/
theorem pay4_apply (g : FVec Ideal S1x4x128 .f32) (x : FVec Ideal S1x128x64x64 .f32) (p : Fin 128) (h w : Fin 64) :
    k1_pay4 g x (ix4 (0 : Fin 1) p h w) = x (ix4 (0 : Fin 1) p h w) * g (ix3 (0 : Fin 1) (0 : Fin 4) p) := by
  unfold k1_pay4 k1_pay2
  rw [mulf_apply]
  exact congrArg (x (ix4 (0 : Fin 1) p h w) * ·) (gateRow_apply 0 (by omega) g slices_S4x128_o0_0_S1x128 p h w)

/-- The second quadrant's product: the loaded quadrant times row 1 of the gate block. -/
theorem pay5_apply (g : FVec Ideal S1x4x128 .f32) (x : FVec Ideal S1x128x64x64 .f32) (p : Fin 128) (h w : Fin 64) :
    k1_pay5 g x (ix4 (0 : Fin 1) p h w) = x (ix4 (0 : Fin 1) p h w) * g (ix3 (0 : Fin 1) (1 : Fin 4) p) := by
  unfold k1_pay5 k1_pay2
  rw [mulf_apply]
  exact congrArg (x (ix4 (0 : Fin 1) p h w) * ·) (gateRow_apply 1 (by omega) g slices_S4x128_o1_0_S1x128 p h w)

/-- The third quadrant's product: the loaded quadrant times row 2 of the gate block. -/
theorem pay6_apply (g : FVec Ideal S1x4x128 .f32) (x : FVec Ideal S1x128x64x64 .f32) (p : Fin 128) (h w : Fin 64) :
    k1_pay6 g x (ix4 (0 : Fin 1) p h w) = x (ix4 (0 : Fin 1) p h w) * g (ix3 (0 : Fin 1) (2 : Fin 4) p) := by
  unfold k1_pay6 k1_pay2
  rw [mulf_apply]
  exact congrArg (x (ix4 (0 : Fin 1) p h w) * ·) (gateRow_apply 2 (by omega) g slices_S4x128_o2_0_S1x128 p h w)

/-- The fourth quadrant's product: the loaded quadrant times row 3 of the gate block. -/
theorem pay1_apply (g : FVec Ideal S1x4x128 .f32) (x : FVec Ideal S1x128x64x64 .f32) (p : Fin 128) (h w : Fin 64) :
    k1_pay1 (k1_pay3 g) x (ix4 (0 : Fin 1) p h w) = x (ix4 (0 : Fin 1) p h w) * g (ix3 (0 : Fin 1) (3 : Fin 4) p) := by
  unfold k1_pay1 k1_pay3 k1_pay2
  rw [mulf_apply]
  exact congrArg (x (ix4 (0 : Fin 1) p h w) * ·) (gateRow_apply 3 (by omega) g slices_S4x128_o3_0_S1x128 p h w)

/-! ## The block the body leaves -/

/-- A [1,128,128,128] block gated by a [1,4,128] gate block: entry (0, p, h, w) times the gate block's entry
    (0, quadrant of (h, w), p). -/
def gatedBlock (x : S1x128x128x128.Idx → EReal) (g : S1x4x128.Idx → EReal) : S1x128x128x128.Idx → EReal :=
  fun y => x y * g (ix3 (0 : Fin 1) (Cert.Spec.quadOf ⟨(y 2).val, (y 2).isLt⟩ ⟨(y 3).val, (y 3).isLt⟩) (⟨(y 1).val, (y 1).isLt⟩ : Fin 128))

/-- The store into the quadrant at rows 64…, columns 64… holds the gated block there (gate row 3). -/
theorem piece_hi_hi (x0 : Vec Ideal S1x128x128x128 .f32) (x1 : Vec Ideal S1x4x128 .f32) (x : S1x128x64x64.Idx) :
    k1_pay1 (k1_pay3 (View.ld x1 r1_0)) (View.ld x0 r1_4) x = gatedBlock x0 x1 (r1_4.emb x) := by
  obtain ⟨a, p, h, w, rfl⟩ : ∃ (a : Fin 1) (p : Fin 128) (h w : Fin 64), x = ix4 a p h w := ⟨x 0, x 1, x 2, x 3, eq_ix4 x⟩
  obtain rfl : a = 0 := Subsingleton.elim _ _
  rw [pay1_apply]
  show x0 (r1_4.emb (ix4 (0 : Fin 1) p h w)) * x1 (r1_0.emb (ix3 (0 : Fin 1) (3 : Fin 4) p)) = x0 (r1_4.emb (ix4 (0 : Fin 1) p h w)) * x1 _
  refine congrArg (x0 (r1_4.emb (ix4 (0 : Fin 1) p h w)) * x1 ·) ?_
  funext a; apply Fin.ext
  have hh : h.val < 64 := h.isLt
  have hw : w.val < 64 := w.isLt
  match a with
  | ⟨0, _⟩ => rfl
  | ⟨1, _⟩ => show 0 + 1 * 3 = 2 * ((64 + 1 * h.val) / 64) + (64 + 1 * w.val) / 64; omega
  | ⟨2, _⟩ => rfl

/-- The store into the quadrant at rows 64…, columns 0… holds the gated block there (gate row 2). -/
theorem piece_hi_lo (x0 : Vec Ideal S1x128x128x128 .f32) (x1 : Vec Ideal S1x4x128 .f32) (x : S1x128x64x64.Idx) :
    k1_pay6 (View.ld x1 r1_0) (View.ld x0 r1_3) x = gatedBlock x0 x1 (r1_3.emb x) := by
  obtain ⟨a, p, h, w, rfl⟩ : ∃ (a : Fin 1) (p : Fin 128) (h w : Fin 64), x = ix4 a p h w := ⟨x 0, x 1, x 2, x 3, eq_ix4 x⟩
  obtain rfl : a = 0 := Subsingleton.elim _ _
  rw [pay6_apply]
  show x0 (r1_3.emb (ix4 (0 : Fin 1) p h w)) * x1 (r1_0.emb (ix3 (0 : Fin 1) (2 : Fin 4) p)) = x0 (r1_3.emb (ix4 (0 : Fin 1) p h w)) * x1 _
  refine congrArg (x0 (r1_3.emb (ix4 (0 : Fin 1) p h w)) * x1 ·) ?_
  funext a; apply Fin.ext
  have hh : h.val < 64 := h.isLt
  have hw : w.val < 64 := w.isLt
  match a with
  | ⟨0, _⟩ => rfl
  | ⟨1, _⟩ => show 0 + 1 * 2 = 2 * ((64 + 1 * h.val) / 64) + (0 + 1 * w.val) / 64; omega
  | ⟨2, _⟩ => rfl

/-- The store into the quadrant at rows 0…, columns 64… holds the gated block there (gate row 1). -/
theorem piece_lo_hi (x0 : Vec Ideal S1x128x128x128 .f32) (x1 : Vec Ideal S1x4x128 .f32) (x : S1x128x64x64.Idx) :
    k1_pay5 (View.ld x1 r1_0) (View.ld x0 r1_2) x = gatedBlock x0 x1 (r1_2.emb x) := by
  obtain ⟨a, p, h, w, rfl⟩ : ∃ (a : Fin 1) (p : Fin 128) (h w : Fin 64), x = ix4 a p h w := ⟨x 0, x 1, x 2, x 3, eq_ix4 x⟩
  obtain rfl : a = 0 := Subsingleton.elim _ _
  rw [pay5_apply]
  show x0 (r1_2.emb (ix4 (0 : Fin 1) p h w)) * x1 (r1_0.emb (ix3 (0 : Fin 1) (1 : Fin 4) p)) = x0 (r1_2.emb (ix4 (0 : Fin 1) p h w)) * x1 _
  refine congrArg (x0 (r1_2.emb (ix4 (0 : Fin 1) p h w)) * x1 ·) ?_
  funext a; apply Fin.ext
  have hh : h.val < 64 := h.isLt
  have hw : w.val < 64 := w.isLt
  match a with
  | ⟨0, _⟩ => rfl
  | ⟨1, _⟩ => show 0 + 1 * 1 = 2 * ((0 + 1 * h.val) / 64) + (64 + 1 * w.val) / 64; omega
  | ⟨2, _⟩ => rfl

/-- The store into the quadrant at rows 0…, columns 0… holds the gated block there (gate row 0). -/
theorem piece_lo_lo (x0 : Vec Ideal S1x128x128x128 .f32) (x1 : Vec Ideal S1x4x128 .f32) (x : S1x128x64x64.Idx) :
    k1_pay4 (View.ld x1 r1_0) (View.ld x0 r1_1) x = gatedBlock x0 x1 (r1_1.emb x) := by
  obtain ⟨a, p, h, w, rfl⟩ : ∃ (a : Fin 1) (p : Fin 128) (h w : Fin 64), x = ix4 a p h w := ⟨x 0, x 1, x 2, x 3, eq_ix4 x⟩
  obtain rfl : a = 0 := Subsingleton.elim _ _
  rw [pay4_apply]
  show x0 (r1_1.emb (ix4 (0 : Fin 1) p h w)) * x1 (r1_0.emb (ix3 (0 : Fin 1) (0 : Fin 4) p)) = x0 (r1_1.emb (ix4 (0 : Fin 1) p h w)) * x1 _
  refine congrArg (x0 (r1_1.emb (ix4 (0 : Fin 1) p h w)) * x1 ·) ?_
  funext a; apply Fin.ext
  have hh : h.val < 64 := h.isLt
  have hw : w.val < 64 := w.isLt
  match a with
  | ⟨0, _⟩ => rfl
  | ⟨1, _⟩ => show 0 + 1 * 0 = 2 * ((0 + 1 * h.val) / 64) + (0 + 1 * w.val) / 64; omega
  | ⟨2, _⟩ => rfl

/-- What the body leaves in the output block: the input block gated by the gate block, entry by entry —
    the four quadrant stores each hold their part of that one function, and together they cover the block. -/
theorem out1_2_eq (x0 : Vec Ideal S1x128x128x128 .f32) (x1 : Vec Ideal S1x4x128 .f32) :
    out1_2 x0 x1 = gatedBlock x0 x1 := by
  funext y
  unfold out1_2
  refine View.canon_apply_of_pieces (Val := Elt Ideal) (S := S1x128x128x128) (e := .f32) (gatedBlock x0 x1) _ ?_ y (cover1_2 _ _ _ _ y)
  intro pc hpc
  simp only [List.mem_cons, List.not_mem_nil, or_false] at hpc
  rcases hpc with rfl | rfl | rfl | rfl
  · exact piece_hi_hi x0 x1
  · exact piece_hi_lo x0 x1
  · exact piece_lo_hi x0 x1
  · exact piece_lo_lo x0 x1

/-! ## From the blocks to the array -/

/-- The three windows' block indices over the grid: at every point the input block and the output block sit at
    (b, cb, 0, 0) and the gate block at (b, 0, cb), with b ≤ 15 and cb ≤ 1. -/
theorem idx_facts : ∀ t : Fin cfg1.N,
    win1_0.index t (0 : Fin 4) = win1_2.index t (0 : Fin 4)
    ∧ win1_0.index t (1 : Fin 4) = win1_2.index t (1 : Fin 4)
    ∧ win1_0.index t (2 : Fin 4) = 0
    ∧ win1_0.index t (3 : Fin 4) = 0
    ∧ win1_1.index t (0 : Fin 3) = win1_2.index t (0 : Fin 4)
    ∧ win1_1.index t (1 : Fin 3) = 0
    ∧ win1_1.index t (2 : Fin 3) = win1_2.index t (1 : Fin 4)
    ∧ win1_2.index t (0 : Fin 4) ≤ 15
    ∧ win1_2.index t (1 : Fin 4) ≤ 1
    ∧ win1_2.index t (2 : Fin 4) = 0
    ∧ win1_2.index t (3 : Fin 4) = 0 :=
  (by decide +kernel : ∀ t : Fin grid1.N, _)

/-- Every block (b, cb, 0, 0) of the output array is some point's. -/
theorem idx_onto : ∀ (q0 : Fin 16) (q1 : Fin 2), ∃ t : Fin cfg1.N, win1_2.index t = ![q0.val, q1.val, 0, 0] :=
  (by decide +kernel : ∀ (q0 : Fin 16) (q1 : Fin 2), ∃ t : Fin grid1.N, win1_2.index t = ![q0.val, q1.val, 0, 0])

/-- An entry of the input array times the gate entry of its image, quadrant and channel is the gated array there. -/
theorem gated_apply_of (A : Cert.Spec.T4.Idx → EReal) (Gt : Cert.Spec.Q3.Idx → EReal) (i i' : Cert.Spec.T4.Idx) (k : Cert.Spec.Q3.Idx)
    (hi : i' = i)
    (hk : k = ix3 (⟨(i 0).val, (i 0).isLt⟩ : Fin 16) (Cert.Spec.quadOf ⟨(i 2).val, (i 2).isLt⟩ ⟨(i 3).val, (i 3).isLt⟩) (⟨(i 1).val, (i 1).isLt⟩ : Fin 256)) :
    A i' * Gt k = Cert.Spec.gated A Gt i := by
  subst hi hk; rfl

/-- What point `t` writes back is block `t` of the gated array: the input block and the gate block are the arrays'
    entries at the block's place, and a quadrant inside the block is the quadrant inside the image. -/
theorem flushed_eq (V : (c : Dev nD) → (b : Ref sig .tc) → Buf (Elt Ideal) ((c : Thread nD τ).loc b)) (c : Dev nD) (t : Fin cfg1.N) :
    (Gen.dat1 (F := Ideal) V c).flushed 2 t
      = ((cfg1.win 2).blk t).view.read (Elt Ideal) (Cert.Spec.gated (V c main_arg0) (V c main_v21)) := by
  show (cfg1.win 2).cut (grid1.coords t) ((Gen.dat1 (F := Ideal) V c).after 2 t) = _
  rw [after1_2, out1_2_eq]
  obtain ⟨e0, e1, e2, e3, e4, e5, e6, e7, e8, e9, e10⟩ := idx_facts t
  funext j
  have hj0 : (j 0).val < 1 := (j 0).isLt
  have hj1 : (j 1).val < 128 := (j 1).isLt
  have hj2 : (j 2).val < 128 := (j 2).isLt
  have hj3 : (j 3).val < 128 := (j 3).isLt
  have h0 : ((cfg1.win 0).blk t).view.emb j = ((cfg1.win 2).blk t).view.emb j := by
    funext a; apply Fin.ext
    match a with
    | ⟨0, _⟩ => show win1_0.index t (0 : Fin 4) * 1 + 1 * (j 0).val = win1_2.index t (0 : Fin 4) * 1 + 1 * (j 0).val; omega
    | ⟨1, _⟩ => show win1_0.index t (1 : Fin 4) * 128 + 1 * (j 1).val = win1_2.index t (1 : Fin 4) * 128 + 1 * (j 1).val; omega
    | ⟨2, _⟩ => show win1_0.index t (2 : Fin 4) * 128 + 1 * (j 2).val = win1_2.index t (2 : Fin 4) * 128 + 1 * (j 2).val; omega
    | ⟨3, _⟩ => show win1_0.index t (3 : Fin 4) * 128 + 1 * (j 3).val = win1_2.index t (3 : Fin 4) * 128 + 1 * (j 3).val; omega
  refine gated_apply_of (V c main_arg0) (V c main_v21) (((cfg1.win 2).blk t).view.emb j) (((cfg1.win 0).blk t).view.emb j)
    (((cfg1.win 1).blk t).view.emb (ix3 (0 : Fin 1) (Cert.Spec.quadOf ⟨(j 2).val, (j 2).isLt⟩ ⟨(j 3).val, (j 3).isLt⟩) (⟨(j 1).val, (j 1).isLt⟩ : Fin 128))) h0 ?_
  funext a; apply Fin.ext
  match a with
  | ⟨0, _⟩ => show win1_1.index t (0 : Fin 3) * 1 + 1 * 0 = win1_2.index t (0 : Fin 4) * 1 + 1 * (j 0).val; omega
  | ⟨1, _⟩ =>
    show win1_1.index t (1 : Fin 3) * 4 + 1 * (2 * ((j 2).val / 64) + (j 3).val / 64)
      = 2 * ((win1_2.index t (2 : Fin 4) * 128 + 1 * (j 2).val) / 64) + (win1_2.index t (3 : Fin 4) * 128 + 1 * (j 3).val) / 64
    omega
  | ⟨2, _⟩ => show win1_1.index t (2 : Fin 3) * 128 + 1 * (j 1).val = win1_2.index t (1 : Fin 4) * 128 + 1 * (j 1).val; omega

/-- An index of the output array is in point `t`'s block iff each coordinate is in the block's range on its axis. -/
theorem mem_blk (t : Fin cfg1.N) (i : S16x256x128x128.Idx) :
    i ∈ ((cfg1.win 2).blk t).view.set ↔ ∀ a : Fin 4, win1_2.index t a * S1x128x128x128.size a ≤ (i a).val
      ∧ (i a).val < win1_2.index t a * S1x128x128x128.size a + S1x128x128x128.size a := by
  show i ∈ ((View.whole main_v22).slice (win1_2.rect t)).set ↔ _
  rw [View.set_slice_whole, Rect.mem_set_unit]
  exact Iff.rfl

/-- Every index (b, ch, h, w) of the output array is in a block some point writes back: the block (b, ch / 128, 0, 0). -/
theorem cover (i : S16x256x128x128.Idx) :
    ∃ t : Fin cfg1.N, (cfg1.win 2).flush t = true ∧ i ∈ ((cfg1.win 2).blk t).view.set := by
  have hi0 : (i 0).val < 16 := (i 0).isLt
  have hi1 : (i 1).val < 256 := (i 1).isLt
  have hi2 : (i 2).val < 128 := (i 2).isLt
  have hi3 : (i 3).val < 128 := (i 3).isLt
  obtain ⟨t, ht⟩ := idx_onto ⟨(i 0).val, hi0⟩ ⟨(i 1).val / 128, by omega⟩
  have q0 : win1_2.index t (0 : Fin 4) = (i 0).val := congrFun ht 0
  have q1 : win1_2.index t (1 : Fin 4) = (i 1).val / 128 := congrFun ht 1
  have q2 : win1_2.index t (2 : Fin 4) = 0 := congrFun ht 2
  have q3 : win1_2.index t (3 : Fin 4) = 0 := congrFun ht 3
  refine ⟨t, flush1_2 t, ?_⟩
  rw [mem_blk]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 128 ≤ (i 1).val ∧ (i 1).val < win1_2.index t (1 : Fin 4) * 128 + 128; omega
  | ⟨2, _⟩ => show win1_2.index t (2 : Fin 4) * 128 ≤ (i 2).val ∧ (i 2).val < win1_2.index t (2 : Fin 4) * 128 + 128; omega
  | ⟨3, _⟩ => show win1_2.index t (3 : Fin 4) * 128 ≤ (i 3).val ∧ (i 3).val < win1_2.index t (3 : Fin 4) * 128 + 128; omega

/-- THE OUTPUT ARRAY after the gated multiply has run from region-entry contents `V`: every entry of the input
    array times the gate of its image, quadrant and channel. -/
theorem gated_array (V : (c : Dev nD) → (b : Ref sig .tc) → Buf (Elt Ideal) ((c : Thread nD τ).loc b)) (c : Dev nD) :
    (Gen.dat1 (F := Ideal) V c).arrAt 2 cfg1.N = Cert.Spec.gated (V c main_arg0) (V c main_v21) :=
  (Gen.dat1 (F := Ideal) V c).arrAt_eq_of_cover 2 _ (fun t _ => flushed_eq V c t) cover

end Cert.KernelIdeal.GateRegion

end
-- ==== Proof.SpecFlat.lean ====
/-
  The [16, 4, 256] array of axis-by-axis means, reshaped to [16, 1024], is the flat array of the same means:
  row-major, entry (b, q, c) sits at column q·256 + c.
-/
import proofs.«178173_j55224689492532_1_alg».proof.Proof.Spec
import Idealize.ShloMosaic.Lib.Pipeline.Value
import Idealize.ShloMosaic.Lib.ValueIdx

noncomputable section

namespace Cert.Spec

open Idealize.ShloMosaic Idealize.ShloMosaic.ValueIdx

/-- The reshape of the means array to two axes reads quadrant j / 256, channel j % 256 at column j. -/
theorem flat_meansSeq (t : T4.Idx → EReal) (h : Q3.ShapeCasts Q2) : shapeCast Q2 (meansSeq3 t) h = meansSeq2 t := by
  funext j
  have hj : (j 1).val < 1024 := (j 1).isLt
  rw [shapeCast_apply (meansSeq3 t) h j
    (ix3 (⟨(j 0).val, (j 0).isLt⟩ : Fin 16) (⟨(j 1).val / 256, flat_q_lt j⟩ : Fin 4) (⟨(j 1).val % 256, flat_c_lt j⟩ : Fin 256)) (by
      rw [Shape.rowMajor_val_three, Shape.rowMajor_val_two]
      show ((j 0).val * 4 + (j 1).val / 256) * 256 + (j 1).val % 256 = (j 0).val * 1024 + (j 1).val
      omega)]
  rfl

end Cert.Spec

end
-- ==== Proof.KernelValue.lean ====
/-
  The idealized kernel program's result as one function of the launch memory.  The second pallas_call leaves in the
  result array every entry of the first argument times the gate of its image and quadrant; the gate it finds is the
  host stretch's `gateOf` of the first call's output, which holds the axis-by-axis quadrant means of the first
  argument; the first argument itself is never written.
-/
import proofs.«178173_j55224689492532_1_alg».proof.Proof.HostChain
import proofs.«178173_j55224689492532_1_alg».proof.Proof.KernelResultRun
import proofs.«178173_j55224689492532_1_alg».proof.Proof.MeansRegion
import proofs.«178173_j55224689492532_1_alg».proof.Proof.GateRegion
import proofs.«178173_j55224689492532_1_alg».proof.Proof.SpecFlat

set_option maxRecDepth 16384

noncomputable section

namespace Cert.KernelIdeal.Result

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The result array as a function of the five argument arrays: the first argument gated by `gateOf` of its flat
    axis-by-axis quadrant means and of the weights. -/
def resultOf (a0 : FVec Ideal S16x256x128x128 .f32) (a1 : FVec Ideal S256x1024 .f32) (a2 : FVec Ideal S256 .f32)
    (a3 : FVec Ideal S1024x256 .f32) (a4 : FVec Ideal S1024 .f32) : FVec Ideal S16x256x128x128 .f32 :=
  Cert.Spec.gated a0 (Chain.gateOf (F := Ideal) (Cert.Spec.meansSeq2 a0) a1 a2 a3 a4)

/-- The last segment boundary's contents at the result array are that function of the launch memory. -/
theorem final_eq (c : Dev nD) :
    W5 m ρ c (Proc.devRef .tc main_v22)
      = resultOf (m ((c : Thread nD τ).loc main_arg0)) (m ((c : Thread nD τ).loc main_arg1)) (m ((c : Thread nD τ).loc main_arg2))
          (m ((c : Thread nD τ).loc main_arg3)) (m ((c : Thread nD τ).loc main_arg4)) := by
  rw [Chain.exit1_result, GateRegion.gated_array (V4 m ρ) c]
  show Cert.Spec.gated (W4 m ρ c (Proc.devRef .tc main_arg0)) (W4 m ρ c (Proc.devRef .tc main_v21)) = _
  rw [Chain.entry1_arg0, Chain.entry1_gate, Chain.exit0_means, MeansRegion.means_array (V0 m ρ) c,
    Chain.exit0_arg1, Chain.exit0_arg2, Chain.exit0_arg3, Chain.exit0_arg4]
  show Cert.Spec.gated _ (Chain.gateOf (F := Ideal) (shapeCast Cert.Spec.Q2 (Cert.Spec.meansSeq3 (m ((c : Thread nD τ).loc main_arg0))) shapeCasts_S16x4x256_S16x1024) _ _ _ _) = _
  rw [Cert.Spec.flat_meansSeq]
  rfl

/-- Every weakly fair execution of the idealized kernel program terminates with the result array at `resultOf` of the
    argument arrays and the arguments as launched. -/
theorem run : θ_run defs (onTc (τ := τ) (main (F := Ideal))) ⟨m, fun _ => 0, ρ⟩ (fun r => ∀ c : Dev nD,
      r.2.mem ((c.tc : Thread nD τ).loc main_v22)
        = resultOf (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (final_eq m ρ c), (h c).2⟩) (ResultRun.run_result m ρ)

end Cert.KernelIdeal.Result

end
-- ==== Proof.RefGate.lean ====
/-
  The reference makes its gate from its flat means by the very operations the kernel program's host stretch
  applies to its own: the two texts, laid side by side, are one function of the flat means and the weights.
-/
import proofs.«178173_j55224689492532_1_alg».proof.Proof.HostChain
import proofs.«178173_j55224689492532_1_alg».proof.Proof.RefReadCopy

set_option maxRecDepth 16384

noncomputable section

namespace Cert.Bridge

open Idealize.ShloMosaic

variable {F : FTy → Type} [FloatOps F]

/-- The reference's gate array is `gateOf` of its flat means and the four weight arrays. -/
theorem ref_gate (x0 : (⟨Cert.ReferenceIdeal.S16x256x128x128, .f32⟩ : BufTy).Contents (Elt F))
    (x1 : (⟨Cert.ReferenceIdeal.S256x1024, .f32⟩ : BufTy).Contents (Elt F))
    (x2 : (⟨Cert.ReferenceIdeal.S256, .f32⟩ : BufTy).Contents (Elt F))
    (x3 : (⟨Cert.ReferenceIdeal.S1024x256, .f32⟩ : BufTy).Contents (Elt F))
    (x4 : (⟨Cert.ReferenceIdeal.S1024, .f32⟩ : BufTy).Contents (Elt F)) :
    Cert.ReferenceIdeal.ReadP.val_main_v36 (F := F) x0 x1 x2 x3 x4
      = Cert.KernelIdeal.Chain.gateOf (F := F) (Cert.ReferenceIdeal.ReadP.val_main_v16 (F := F) x0) x1 x2 x3 x4 := by
  unfold Cert.ReferenceIdeal.ReadP.val_main_v36 Cert.ReferenceIdeal.ReadP.val_main_v35 Cert.ReferenceIdeal.ReadP.val_main_v34 Cert.ReferenceIdeal.ReadP.val_main_v33 Cert.ReferenceIdeal.ReadP.val_main_v32 Cert.ReferenceIdeal.ReadP.val_main_v31 Cert.ReferenceIdeal.ReadP.val_main_v30 Cert.ReferenceIdeal.ReadP.val_main_v29 Cert.ReferenceIdeal.ReadP.val_main_v28 Cert.ReferenceIdeal.ReadP.val_main_v27 Cert.ReferenceIdeal.ReadP.val_main_v26 Cert.ReferenceIdeal.ReadP.val_main_v25 Cert.ReferenceIdeal.ReadP.val_main_v24 Cert.ReferenceIdeal.ReadP.val_main_v23 Cert.ReferenceIdeal.ReadP.val_main_v22 Cert.ReferenceIdeal.ReadP.val_main_call0_v11 Cert.ReferenceIdeal.ReadP.val_main_call0_v10 Cert.ReferenceIdeal.ReadP.val_main_call0_v9 Cert.ReferenceIdeal.ReadP.val_main_call0_v8 Cert.ReferenceIdeal.ReadP.val_main_call0_v7 Cert.ReferenceIdeal.ReadP.val_main_call0_v6 Cert.ReferenceIdeal.ReadP.val_main_call0_v5 Cert.ReferenceIdeal.ReadP.val_main_call0_v4 Cert.ReferenceIdeal.ReadP.val_main_call0_v3 Cert.ReferenceIdeal.ReadP.val_main_call0_v2 Cert.ReferenceIdeal.ReadP.val_main_call0_v1 Cert.ReferenceIdeal.ReadP.val_main_call0_v0 Cert.ReferenceIdeal.ReadP.val_main_call0_cst Cert.ReferenceIdeal.ReadP.val_main_v21 Cert.ReferenceIdeal.ReadP.val_main_v20 Cert.ReferenceIdeal.ReadP.val_main_v19 Cert.ReferenceIdeal.ReadP.val_main_v18 Cert.ReferenceIdeal.ReadP.val_main_v17 Cert.ReferenceIdeal.ReadP.val_main_cst_7 Cert.ReferenceIdeal.ReadP.val_main_cst_8
  unfold Cert.KernelIdeal.Chain.gateOf Cert.KernelIdeal.Chain.softplus Cert.KernelIdeal.Chain.squeeze
  rfl

end Cert.Bridge

end
-- ==== Proof.RefMeans.lean ====
/-
  The reference's quadrant means, laid flat.

  The reference cuts the [16, 256, 128, 128] input into its four 64 × 64 quadrants, sums each quadrant over
  both of its axes from the initial value 0.0, divides by 4096.0, and joins the four [16, 256] results along
  axis 1 into a [16, 1024] array.  Read index by index, column q·256 + c of row b of that array is the joint
  mean of quadrant q of image (b, c): the sum over the 64 × 64 entries of the quadrant, from 0.0, over 4096.0.

  Two facts carry the proof: a sum over the last two axes of a [16, 256, 64, 64] array is a double sum over
  rows and columns (stated once, for any operand, and used for each quadrant); and a four-piece concatenation
  along axis 1, at column 256·k + c, is piece k at column c.
-/
import proofs.«178173_j55224689492532_1_alg».proof.Proof.RefReadCopy
import proofs.«178173_j55224689492532_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefRead

open Cert.ReferenceIdeal Cert.ReferenceIdeal.Gen Cert.ReferenceIdeal.ReadP Idealize.ShloMosaic Idealize.ShloMosaic.TcCoe Idealize.ShloMosaic.ValueIdx

/-! ## A sum over rows and columns of a [16, 256, 64, 64] array -/

/-- Dropping axes 2 and 3 of an index of a [16, 256, 64, 64] array keeps its coordinate on axis 0. -/
theorem dropRC_val0 (hR : S16x256x64x64.ReducesTo [2, 3] S16x256) (i : S16x256x64x64.Idx) :
    ((hR.drop i 0 : Fin 16) : Nat) = (i 0).val :=
  hR.drop_apply_val_of_eq i 0 0

/-- … and its coordinate on axis 1. -/
theorem dropRC_val1 (hR : S16x256x64x64.ReducesTo [2, 3] S16x256) (i : S16x256x64x64.Idx) :
    ((hR.drop i 1 : Fin 256) : Nat) = (i 1).val :=
  hR.drop_apply_val_of_eq i 1 1

/-- An index of the [16, 256, 64, 64] array drops to (b, c) exactly when its first two coordinates are b and c. -/
theorem dropRC_eq_iff (hR : S16x256x64x64.ReducesTo [2, 3] S16x256) (i : S16x256x64x64.Idx) (b : Fin 16) (c : Fin 256) :
    hR.drop i = ix2 b c ↔ (i 0).val = b.val ∧ (i 1).val = c.val := by
  constructor
  · intro h
    exact ⟨(dropRC_val0 hR i).symm.trans (congrArg Fin.val (congrFun h 0)),
      (dropRC_val1 hR i).symm.trans (congrArg Fin.val (congrFun h 1))⟩
  · rintro ⟨h0, h1⟩
    funext a
    match a with
    | ⟨0, _⟩ => exact Fin.ext ((dropRC_val0 hR i).trans h0)
    | ⟨1, _⟩ => exact Fin.ext ((dropRC_val1 hR i).trans h1)

/-- The host's sum of a [16, 256, 64, 64] array over its last two axes, at (b, c): the initial value plus the
    sum over the 64 rows of the sums over the 64 columns of image (b, c).  The indices that drop to (b, c) are
    exactly the (b, c, h, w); they are matched with the pairs (h, w). -/
theorem sum_rows_cols (hR : S16x256x64x64.ReducesTo [2, 3] S16x256) (x : S16x256x64x64.Idx → EReal) (init : EReal)
    (b : Fin 16) (c : Fin 256) :
    Ideal.hostReduceAdd hR x init (ix2 b c) = init + ∑ h : Fin 64, ∑ w : Fin 64, x (ix4 b c h w) := by
  unfold Ideal.hostReduceAdd
  congr 1
  rw [← Fintype.sum_prod_type' (fun h w => x (ix4 b c h w))]
  refine Finset.sum_nbij' (fun i => (⟨(i 2).val, (i 2).isLt⟩, ⟨(i 3).val, (i 3).isLt⟩)) (fun p => ix4 b c p.1 p.2)
    (fun _ _ => Finset.mem_univ _) ?_ ?_ ?_ ?_
  · intro p _
    exact Finset.mem_filter.2 ⟨Finset.mem_univ _, (dropRC_eq_iff hR _ b c).2 ⟨rfl, rfl⟩⟩
  · intro i hi
    obtain ⟨h0, h1⟩ := (dropRC_eq_iff hR i b c).1 (Finset.mem_filter.1 hi).2
    funext a
    match a with
    | ⟨0, _⟩ => exact Fin.ext h0.symm
    | ⟨1, _⟩ => exact Fin.ext h1.symm
    | ⟨2, _⟩ => rfl
    | ⟨3, _⟩ => rfl
  · intro p _
    rfl
  · intro i hi
    obtain ⟨h0, h1⟩ := (dropRC_eq_iff hR i b c).1 (Finset.mem_filter.1 hi).2
    refine congrArg x ?_
    funext a
    match a with
    | ⟨0, _⟩ => exact Fin.ext h0
    | ⟨1, _⟩ => exact Fin.ext h1
    | ⟨2, _⟩ => rfl
    | ⟨3, _⟩ => rfl

/-! ## Four [16, 256] pieces joined along axis 1 -/

/-- The join of four [16, 256] arrays along axis 1, at an index whose column is 256·k + c with k < 4: piece k
    at (b, c).  Piece k starts at column 256·k. -/
theorem join4_piece {α : Type} (hC : Shape.Concatenates [S16x256, S16x256, S16x256, S16x256] S16x1024 1)
    (p0 p1 p2 p3 : S16x256.Idx → α) (j : S16x1024.Idx) (k : Nat) (hk : k < 4) (x₁ : S16x256.Idx → α)
    (hxk : ([⟨S16x256, p0⟩, ⟨S16x256, p1⟩, ⟨S16x256, p2⟩, ⟨S16x256, p3⟩] : List ((s : Shape) × (s.Idx → α)))[k]'hk
      = ⟨S16x256, x₁⟩)
    (b : Fin 16) (c : Fin 256) (hb : (j 0).val = b.val) (hc : (j 1).val = 256 * k + c.val) :
    concatenate S16x1024 1 [⟨S16x256, p0⟩, ⟨S16x256, p1⟩, ⟨S16x256, p2⟩, ⟨S16x256, p3⟩] hC j = x₁ (ix2 b c) := by
  refine concatenate_apply_piece (t := S16x1024) (1 : Fin 2)
    ([⟨S16x256, p0⟩, ⟨S16x256, p1⟩, ⟨S16x256, p2⟩, ⟨S16x256, p3⟩] : List ((s : Shape) × (s.Idx → α))) hC j k hk
    S16x256 x₁ hxk rfl (256 * k) ?_ (ix2 b c) ?_ ?_
  · interval_cases k <;> rfl
  · intro a
    match a with
    | ⟨0, _⟩ => exact fun _ => hb.symm
    | ⟨1, _⟩ => exact fun h => absurd rfl h
  · show 256 * k + c.val = (j 1).val
    exact hc.symm

/-! ## The four slices meet the four quadrants -/

/-- Entry (h, w) of the first slice of image (b, c) is entry (h, w) of quadrant 0: rows 0…63, columns 0…63. -/
theorem slice0_idx (b : Fin 16) (c : Fin 256) (h w : Fin 64) :
    idx_main_v0 (ix4 b c h w) = Spec.qix b c 0 h w := by
  funext a
  match a with
  | ⟨0, _⟩ => rfl
  | ⟨1, _⟩ => rfl
  | ⟨2, _⟩ => exact Fin.ext (by show h.val = Spec.rowOff 0 + h.val; unfold Spec.rowOff; show h.val = 64 * (0 / 2) + h.val; omega)
  | ⟨3, _⟩ => exact Fin.ext (by show w.val = Spec.colOff 0 + w.val; unfold Spec.colOff; show w.val = 64 * (0 % 2) + w.val; omega)

/-- The second slice is quadrant 1: rows 0…63, columns 64…127. -/
theorem slice1_idx (b : Fin 16) (c : Fin 256) (h w : Fin 64) :
    idx_main_v1 (ix4 b c h w) = Spec.qix b c 1 h w := by
  funext a
  match a with
  | ⟨0, _⟩ => rfl
  | ⟨1, _⟩ => rfl
  | ⟨2, _⟩ => exact Fin.ext (by show h.val = Spec.rowOff 1 + h.val; unfold Spec.rowOff; show h.val = 64 * (1 / 2) + h.val; omega)
  | ⟨3, _⟩ => exact Fin.ext (by show 64 + w.val = Spec.colOff 1 + w.val; unfold Spec.colOff; show 64 + w.val = 64 * (1 % 2) + w.val; omega)

/-- The third slice is quadrant 2: rows 64…127, columns 0…63. -/
theorem slice2_idx (b : Fin 16) (c : Fin 256) (h w : Fin 64) :
    idx_main_v2 (ix4 b c h w) = Spec.qix b c 2 h w := by
  funext a
  match a with
  | ⟨0, _⟩ => rfl
  | ⟨1, _⟩ => rfl
  | ⟨2, _⟩ => exact Fin.ext (by show 64 + h.val = Spec.rowOff 2 + h.val; unfold Spec.rowOff; show 64 + h.val = 64 * (2 / 2) + h.val; omega)
  | ⟨3, _⟩ => exact Fin.ext (by show w.val = Spec.colOff 2 + w.val; unfold Spec.colOff; show w.val = 64 * (2 % 2) + w.val; omega)

/-- The fourth slice is quadrant 3: rows 64…127, columns 64…127. -/
theorem slice3_idx (b : Fin 16) (c : Fin 256) (h w : Fin 64) :
    idx_main_v3 (ix4 b c h w) = Spec.qix b c 3 h w := by
  funext a
  match a with
  | ⟨0, _⟩ => rfl
  | ⟨1, _⟩ => rfl
  | ⟨2, _⟩ => exact Fin.ext (by show 64 + h.val = Spec.rowOff 3 + h.val; unfold Spec.rowOff; show 64 + h.val = 64 * (3 / 2) + h.val; omega)
  | ⟨3, _⟩ => exact Fin.ext (by show 64 + w.val = Spec.colOff 3 + w.val; unfold Spec.colOff; show 64 + w.val = 64 * (3 % 2) + w.val; omega)

/-! ## Each quadrant's mean -/

/-- The reference's mean of the first slice at (b, c) is the joint mean of quadrant 0 of image (b, c). -/
theorem mean_q0 (x0 : (⟨S16x256x128x128, .f32⟩ : BufTy).Contents (Elt Ideal)) (b : Fin 16) (c : Fin 256) :
    val_main_v6 (F := Ideal) x0 (ix2 b c) = Spec.meanJoint x0 b 0 c := by
  rw [val_main_v6_apply, val_main_v5_apply, val_main_cst_0_apply]
  unfold val_main_v4 Host.reduceAdd
  simp only [Ideal.hostReduceAdd_def, Ideal.hostDivf_def]
  rw [sum_rows_cols, val_main_cst_apply]
  simp only [val_main_v0_apply, slice0_idx]
  rfl

/-- The second slice's mean is the joint mean of quadrant 1. -/
theorem mean_q1 (x0 : (⟨S16x256x128x128, .f32⟩ : BufTy).Contents (Elt Ideal)) (b : Fin 16) (c : Fin 256) :
    val_main_v9 (F := Ideal) x0 (ix2 b c) = Spec.meanJoint x0 b 1 c := by
  rw [val_main_v9_apply, val_main_v8_apply, val_main_cst_2_apply]
  unfold val_main_v7 Host.reduceAdd
  simp only [Ideal.hostReduceAdd_def, Ideal.hostDivf_def]
  rw [sum_rows_cols, val_main_cst_1_apply]
  simp only [val_main_v1_apply, slice1_idx]
  rfl

/-- The third slice's mean is the joint mean of quadrant 2. -/
theorem mean_q2 (x0 : (⟨S16x256x128x128, .f32⟩ : BufTy).Contents (Elt Ideal)) (b : Fin 16) (c : Fin 256) :
    val_main_v12 (F := Ideal) x0 (ix2 b c) = Spec.meanJoint x0 b 2 c := by
  rw [val_main_v12_apply, val_main_v11_apply, val_main_cst_4_apply]
  unfold val_main_v10 Host.reduceAdd
  simp only [Ideal.hostReduceAdd_def, Ideal.hostDivf_def]
  rw [sum_rows_cols, val_main_cst_3_apply]
  simp only [val_main_v2_apply, slice2_idx]
  rfl

/-- The fourth slice's mean is the joint mean of quadrant 3. -/
theorem mean_q3 (x0 : (⟨S16x256x128x128, .f32⟩ : BufTy).Contents (Elt Ideal)) (b : Fin 16) (c : Fin 256) :
    val_main_v15 (F := Ideal) x0 (ix2 b c) = Spec.meanJoint x0 b 3 c := by
  rw [val_main_v15_apply, val_main_v14_apply, val_main_cst_6_apply]
  unfold val_main_v13 Host.reduceAdd
  simp only [Ideal.hostReduceAdd_def, Ideal.hostDivf_def]
  rw [sum_rows_cols, val_main_cst_5_apply]
  simp only [val_main_v3_apply, slice3_idx]
  rfl

/-! ## The flat array of means -/

/-- **The reference's [16, 1024] array of means is the joint means laid flat**: at (b, j), with q = j / 256 and
    c = j % 256, it holds the mean of quadrant q of image (b, c) — piece q of the join, read at (b, c). -/
theorem flat_means (x0 : (⟨S16x256x128x128, .f32⟩ : BufTy).Contents (Elt Ideal)) :
    val_main_v16 (F := Ideal) x0 = Cert.Spec.meansJoint2 x0 := by
  funext j
  have hj1 : (j 1).val < 1024 := (j 1).isLt
  have hdm : (j 1).val = 256 * ((j 1).val / 256) + (j 1).val % 256 := (Nat.div_add_mod _ _).symm
  unfold val_main_v16 Spec.meansJoint2
  rcases (show (j 1).val / 256 = 0 ∨ (j 1).val / 256 = 1 ∨ (j 1).val / 256 = 2 ∨ (j 1).val / 256 = 3 by omega)
    with hk | hk | hk | hk
  · refine (join4_piece _ (val_main_v6 (F := Ideal) x0) (val_main_v9 (F := Ideal) x0) (val_main_v12 (F := Ideal) x0)
      (val_main_v15 (F := Ideal) x0) j 0 (by decide) _ rfl ⟨(j 0).val, (j 0).isLt⟩ ⟨(j 1).val % 256, Spec.flat_c_lt j⟩ rfl
      (by show (j 1).val = 256 * 0 + (j 1).val % 256; omega)).trans ?_
    rw [mean_q0]
    exact congrArg (fun q => Spec.meanJoint x0 ⟨(j 0).val, (j 0).isLt⟩ q ⟨(j 1).val % 256, Spec.flat_c_lt j⟩)
      (Fin.ext hk.symm : (0 : Fin 4) = ⟨(j 1).val / 256, Spec.flat_q_lt j⟩)
  · refine (join4_piece _ (val_main_v6 (F := Ideal) x0) (val_main_v9 (F := Ideal) x0) (val_main_v12 (F := Ideal) x0)
      (val_main_v15 (F := Ideal) x0) j 1 (by decide) _ rfl ⟨(j 0).val, (j 0).isLt⟩ ⟨(j 1).val % 256, Spec.flat_c_lt j⟩ rfl
      (by show (j 1).val = 256 * 1 + (j 1).val % 256; omega)).trans ?_
    rw [mean_q1]
    exact congrArg (fun q => Spec.meanJoint x0 ⟨(j 0).val, (j 0).isLt⟩ q ⟨(j 1).val % 256, Spec.flat_c_lt j⟩)
      (Fin.ext hk.symm : (1 : Fin 4) = ⟨(j 1).val / 256, Spec.flat_q_lt j⟩)
  · refine (join4_piece _ (val_main_v6 (F := Ideal) x0) (val_main_v9 (F := Ideal) x0) (val_main_v12 (F := Ideal) x0)
      (val_main_v15 (F := Ideal) x0) j 2 (by decide) _ rfl ⟨(j 0).val, (j 0).isLt⟩ ⟨(j 1).val % 256, Spec.flat_c_lt j⟩ rfl
      (by show (j 1).val = 256 * 2 + (j 1).val % 256; omega)).trans ?_
    rw [mean_q2]
    exact congrArg (fun q => Spec.meanJoint x0 ⟨(j 0).val, (j 0).isLt⟩ q ⟨(j 1).val % 256, Spec.flat_c_lt j⟩)
      (Fin.ext hk.symm : (2 : Fin 4) = ⟨(j 1).val / 256, Spec.flat_q_lt j⟩)
  · refine (join4_piece _ (val_main_v6 (F := Ideal) x0) (val_main_v9 (F := Ideal) x0) (val_main_v12 (F := Ideal) x0)
      (val_main_v15 (F := Ideal) x0) j 3 (by decide) _ rfl ⟨(j 0).val, (j 0).isLt⟩ ⟨(j 1).val % 256, Spec.flat_c_lt j⟩ rfl
      (by show (j 1).val = 256 * 3 + (j 1).val % 256; omega)).trans ?_
    rw [mean_q3]
    exact congrArg (fun q => Spec.meanJoint x0 ⟨(j 0).val, (j 0).isLt⟩ q ⟨(j 1).val % 256, Spec.flat_c_lt j⟩)
      (Fin.ext hk.symm : (3 : Fin 4) = ⟨(j 1).val / 256, Spec.flat_q_lt j⟩)

end Cert.ReferenceIdeal.RefRead

end
-- ==== Proof.RefGated.lean ====
/-
  The reference's gated output.

  The reference multiplies each 64 × 64 quadrant of the [16, 256, 128, 128] input by the gate entry of its image
  and quadrant (row q of the [16, 4, 256] gate array, spread over the quadrant), then joins the four products:
  quadrants 0 and 1 side by side along the columns, quadrants 2 and 3 likewise, and the two halves along the rows.
  Read index by index, entry (b, c, h, w) of the result is entry (b, c, h, w) of the input times the gate at
  (b, q, c), q = 2·(h / 64) + w / 64 the quadrant the entry lies in.

  Two facts carry the proof: a two-piece join along the columns, and one along the rows, at an index pick the
  piece the index falls in, whatever the pieces are.  The gate array enters only through its entries.
-/
import proofs.«178173_j55224689492532_1_alg».proof.Proof.RefReadCopy
import proofs.«178173_j55224689492532_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefRead

open Cert.ReferenceIdeal Cert.ReferenceIdeal.Gen Cert.ReferenceIdeal.ReadP Idealize.ShloMosaic Idealize.ShloMosaic.TcCoe Idealize.ShloMosaic.ValueIdx

/-! ## An entry's place inside its half and its quadrant -/

theorem mod64_lt (n : Nat) : n % 64 < 64 := Nat.mod_lt _ (by norm_num)

/-- The position of an entry of the whole array inside its own quadrant: row and column taken modulo 64. -/
def inQuad (i : S16x256x128x128.Idx) : S16x256x64x64.Idx :=
  ix4 ⟨(i 0).val, (i 0).isLt⟩ ⟨(i 1).val, (i 1).isLt⟩ ⟨(i 2).val % 64, mod64_lt _⟩ ⟨(i 3).val % 64, mod64_lt _⟩

/-- The position of an entry of the whole array inside its own row half (the upper or the lower 64 rows). -/
def inHalf (i : S16x256x128x128.Idx) : S16x256x64x128.Idx :=
  ix4 ⟨(i 0).val, (i 0).isLt⟩ ⟨(i 1).val, (i 1).isLt⟩ ⟨(i 2).val % 64, mod64_lt _⟩ ⟨(i 3).val, (i 3).isLt⟩

/-- The gate entry that multiplies entry `i`: image batch, the quadrant of (row, column), channel. -/
def gateIdx (i : S16x256x128x128.Idx) : S16x4x256.Idx :=
  ix3 ⟨(i 0).val, (i 0).isLt⟩ (Spec.quadOf ⟨(i 2).val, (i 2).isLt⟩ ⟨(i 3).val, (i 3).isLt⟩) ⟨(i 1).val, (i 1).isLt⟩

/-! ## The two joins at an index -/

/-- Two [16, 256, 64, 64] pieces joined along the columns, at an entry's place in its row half: the left piece
    where the column is below 64, else the right piece, each at the entry's place in its quadrant. -/
theorem join_cols {α : Type} (hC : Shape.Concatenates [S16x256x64x64, S16x256x64x64] S16x256x64x128 3)
    (p0 p1 : S16x256x64x64.Idx → α) (i : S16x256x128x128.Idx) :
    concatenate S16x256x64x128 3 [⟨S16x256x64x64, p0⟩, ⟨S16x256x64x64, p1⟩] hC (inHalf i)
      = if (i 3).val < 64 then p0 (inQuad i) else p1 (inQuad i) := by
  have h3 : (i 3).val < 128 := (i 3).isLt
  split_ifs with hw
  · refine concatenate_pair_apply_left (3 : Fin 4) p0 p1 hC (inHalf i) rfl (inQuad i) ?_
    intro a
    match a with
    | ⟨0, _⟩ => rfl
    | ⟨1, _⟩ => rfl
    | ⟨2, _⟩ => rfl
    | ⟨3, _⟩ => show (i 3).val % 64 = (i 3).val; omega
  · refine concatenate_pair_apply_right (3 : Fin 4) p0 p1 hC (inHalf i) rfl rfl (inQuad i) ?_ ?_
    · intro a
      match a with
      | ⟨0, _⟩ => exact fun _ => rfl
      | ⟨1, _⟩ => exact fun _ => rfl
      | ⟨2, _⟩ => exact fun _ => rfl
      | ⟨3, _⟩ => exact fun h => absurd rfl h
    · show (i 3).val % 64 + 64 = (i 3).val; omega

/-- Two [16, 256, 64, 128] pieces joined along the rows, at an entry: the upper piece where the row is below 64,
    else the lower piece, each at the entry's place in its row half. -/
theorem join_rows {α : Type} (hC : Shape.Concatenates [S16x256x64x128, S16x256x64x128] S16x256x128x128 2)
    (r0 r1 : S16x256x64x128.Idx → α) (i : S16x256x128x128.Idx) :
    concatenate S16x256x128x128 2 [⟨S16x256x64x128, r0⟩, ⟨S16x256x64x128, r1⟩] hC i
      = if (i 2).val < 64 then r0 (inHalf i) else r1 (inHalf i) := by
  have h2 : (i 2).val < 128 := (i 2).isLt
  split_ifs with hh
  · refine concatenate_pair_apply_left (2 : Fin 4) r0 r1 hC i rfl (inHalf i) ?_
    intro a
    match a with
    | ⟨0, _⟩ => rfl
    | ⟨1, _⟩ => rfl
    | ⟨2, _⟩ => show (i 2).val % 64 = (i 2).val; omega
    | ⟨3, _⟩ => rfl
  · refine concatenate_pair_apply_right (2 : Fin 4) r0 r1 hC i rfl rfl (inHalf i) ?_ ?_
    · intro a
      match a with
      | ⟨0, _⟩ => exact fun _ => rfl
      | ⟨1, _⟩ => exact fun _ => rfl
      | ⟨2, _⟩ => exact fun h => absurd rfl h
      | ⟨3, _⟩ => exact fun _ => rfl
    · show (i 2).val % 64 + 64 = (i 2).val; omega

/-! ## Each slice, read at an entry's place in its quadrant, reads the entry itself -/

/-- In the upper left quadrant (row and column below 64) the first slice at the entry's place is the entry. -/
theorem slice0_inQuad (i : S16x256x128x128.Idx) (hh : (i 2).val < 64) (hw : (i 3).val < 64) :
    idx_main_v0 (inQuad i) = i := by
  have h2 : (i 2).val < 128 := (i 2).isLt
  have h3 : (i 3).val < 128 := (i 3).isLt
  funext a
  match a with
  | ⟨0, _⟩ => rfl
  | ⟨1, _⟩ => rfl
  | ⟨2, _⟩ => exact Fin.ext (by show (i 2).val % 64 = (i 2).val; omega)
  | ⟨3, _⟩ => exact Fin.ext (by show (i 3).val % 64 = (i 3).val; omega)

/-- In the upper right quadrant the second slice (columns from 64) at the entry's place is the entry. -/
theorem slice1_inQuad (i : S16x256x128x128.Idx) (hh : (i 2).val < 64) (hw : ¬ (i 3).val < 64) :
    idx_main_v1 (inQuad i) = i := by
  have h2 : (i 2).val < 128 := (i 2).isLt
  have h3 : (i 3).val < 128 := (i 3).isLt
  funext a
  match a with
  | ⟨0, _⟩ => rfl
  | ⟨1, _⟩ => rfl
  | ⟨2, _⟩ => exact Fin.ext (by show (i 2).val % 64 = (i 2).val; omega)
  | ⟨3, _⟩ => exact Fin.ext (by show 64 + (i 3).val % 64 = (i 3).val; omega)

/-- In the lower left quadrant the third slice (rows from 64) at the entry's place is the entry. -/
theorem slice2_inQuad (i : S16x256x128x128.Idx) (hh : ¬ (i 2).val < 64) (hw : (i 3).val < 64) :
    idx_main_v2 (inQuad i) = i := by
  have h2 : (i 2).val < 128 := (i 2).isLt
  have h3 : (i 3).val < 128 := (i 3).isLt
  funext a
  match a with
  | ⟨0, _⟩ => rfl
  | ⟨1, _⟩ => rfl
  | ⟨2, _⟩ => exact Fin.ext (by show 64 + (i 2).val % 64 = (i 2).val; omega)
  | ⟨3, _⟩ => exact Fin.ext (by show (i 3).val % 64 = (i 3).val; omega)

/-- In the lower right quadrant the fourth slice (rows and columns from 64) at the entry's place is the entry. -/
theorem slice3_inQuad (i : S16x256x128x128.Idx) (hh : ¬ (i 2).val < 64) (hw : ¬ (i 3).val < 64) :
    idx_main_v3 (inQuad i) = i := by
  have h2 : (i 2).val < 128 := (i 2).isLt
  have h3 : (i 3).val < 128 := (i 3).isLt
  funext a
  match a with
  | ⟨0, _⟩ => rfl
  | ⟨1, _⟩ => rfl
  | ⟨2, _⟩ => exact Fin.ext (by show 64 + (i 2).val % 64 = (i 2).val; omega)
  | ⟨3, _⟩ => exact Fin.ext (by show 64 + (i 3).val % 64 = (i 3).val; omega)

/-! ## Each quadrant's spread gate row, read at an entry's place, reads the entry's gate

The gate's row q is cut out of the [16, 4, 256, 1, 1] view, re-laid as [16, 256, 1, 1] and spread over the
64 × 64 quadrant; composed, the four index maps send (b, c, h, w) to (b, q, c). -/

/-- Upper left: row 0 of the gate, and 2·(h / 64) + w / 64 = 0 there. -/
theorem gate0_idx (i : S16x256x128x128.Idx) (hh : (i 2).val < 64) (hw : (i 3).val < 64) :
    idx_main_v37 (idx_main_v38 (idx_main_v39 (idx_main_v40 (inQuad i)))) = gateIdx i := by
  have h0 : (i 0).val < 16 := (i 0).isLt
  have h1 : (i 1).val < 256 := (i 1).isLt
  have h2 : (i 2).val < 128 := (i 2).isLt
  have h3 : (i 3).val < 128 := (i 3).isLt
  funext a
  match a with
  | ⟨0, _⟩ => exact Fin.ext (by show ((((i 0).val * 256 + (i 1).val) * 1 + 0) * 1 + 0) / 256 = (i 0).val; omega)
  | ⟨1, _⟩ => exact Fin.ext (by show 0 = 2 * ((i 2).val / 64) + (i 3).val / 64; omega)
  | ⟨2, _⟩ => exact Fin.ext (by show ((((i 0).val * 256 + (i 1).val) * 1 + 0) * 1 + 0) / 1 % 256 = (i 1).val; omega)

/-- Upper right: row 1 of the gate, and 2·(h / 64) + w / 64 = 1 there. -/
theorem gate1_idx (i : S16x256x128x128.Idx) (hh : (i 2).val < 64) (hw : ¬ (i 3).val < 64) :
    idx_main_v37 (idx_main_v42 (idx_main_v43 (idx_main_v44 (inQuad i)))) = gateIdx i := by
  have h0 : (i 0).val < 16 := (i 0).isLt
  have h1 : (i 1).val < 256 := (i 1).isLt
  have h2 : (i 2).val < 128 := (i 2).isLt
  have h3 : (i 3).val < 128 := (i 3).isLt
  funext a
  match a with
  | ⟨0, _⟩ => exact Fin.ext (by show ((((i 0).val * 256 + (i 1).val) * 1 + 0) * 1 + 0) / 256 = (i 0).val; omega)
  | ⟨1, _⟩ => exact Fin.ext (by show 1 + 0 = 2 * ((i 2).val / 64) + (i 3).val / 64; omega)
  | ⟨2, _⟩ => exact Fin.ext (by show ((((i 0).val * 256 + (i 1).val) * 1 + 0) * 1 + 0) / 1 % 256 = (i 1).val; omega)

/-- Lower left: row 2 of the gate, and 2·(h / 64) + w / 64 = 2 there. -/
theorem gate2_idx (i : S16x256x128x128.Idx) (hh : ¬ (i 2).val < 64) (hw : (i 3).val < 64) :
    idx_main_v37 (idx_main_v47 (idx_main_v48 (idx_main_v49 (inQuad i)))) = gateIdx i := by
  have h0 : (i 0).val < 16 := (i 0).isLt
  have h1 : (i 1).val < 256 := (i 1).isLt
  have h2 : (i 2).val < 128 := (i 2).isLt
  have h3 : (i 3).val < 128 := (i 3).isLt
  funext a
  match a with
  | ⟨0, _⟩ => exact Fin.ext (by show ((((i 0).val * 256 + (i 1).val) * 1 + 0) * 1 + 0) / 256 = (i 0).val; omega)
  | ⟨1, _⟩ => exact Fin.ext (by show 2 + 0 = 2 * ((i 2).val / 64) + (i 3).val / 64; omega)
  | ⟨2, _⟩ => exact Fin.ext (by show ((((i 0).val * 256 + (i 1).val) * 1 + 0) * 1 + 0) / 1 % 256 = (i 1).val; omega)

/-- Lower right: row 3 of the gate, and 2·(h / 64) + w / 64 = 3 there. -/
theorem gate3_idx (i : S16x256x128x128.Idx) (hh : ¬ (i 2).val < 64) (hw : ¬ (i 3).val < 64) :
    idx_main_v37 (idx_main_v51 (idx_main_v52 (idx_main_v53 (inQuad i)))) = gateIdx i := by
  have h0 : (i 0).val < 16 := (i 0).isLt
  have h1 : (i 1).val < 256 := (i 1).isLt
  have h2 : (i 2).val < 128 := (i 2).isLt
  have h3 : (i 3).val < 128 := (i 3).isLt
  funext a
  match a with
  | ⟨0, _⟩ => exact Fin.ext (by show ((((i 0).val * 256 + (i 1).val) * 1 + 0) * 1 + 0) / 256 = (i 0).val; omega)
  | ⟨1, _⟩ => exact Fin.ext (by show 3 + 0 = 2 * ((i 2).val / 64) + (i 3).val / 64; omega)
  | ⟨2, _⟩ => exact Fin.ext (by show ((((i 0).val * 256 + (i 1).val) * 1 + 0) * 1 + 0) / 1 % 256 = (i 1).val; omega)

/-! ## The gated output -/

/-- **The reference's result is the input gated entry by entry**: at (b, c, h, w) it is the input's entry times
    the gate at (b, the quadrant of (h, w), c).  The joins pick the product of the entry's own quadrant; there the
    slice reads the entry and the spread gate row reads the entry's gate. -/
theorem result_gated (x0 : (⟨S16x256x128x128, .f32⟩ : BufTy).Contents (Elt Ideal)) (x1 : (⟨S256x1024, .f32⟩ : BufTy).Contents (Elt Ideal)) (x2 : (⟨S256, .f32⟩ : BufTy).Contents (Elt Ideal)) (x3 : (⟨S1024x256, .f32⟩ : BufTy).Contents (Elt Ideal)) (x4 : (⟨S1024, .f32⟩ : BufTy).Contents (Elt Ideal)) :
    val_main_v56 (F := Ideal) x0 x1 x2 x3 x4 = Cert.Spec.gated x0 (val_main_v36 (F := Ideal) x0 x1 x2 x3 x4) := by
  funext i
  show val_main_v56 (F := Ideal) x0 x1 x2 x3 x4 i = x0 i * val_main_v36 (F := Ideal) x0 x1 x2 x3 x4 (gateIdx i)
  unfold val_main_v56
  rw [join_rows]
  unfold val_main_v46 val_main_v55
  rw [join_cols, join_cols]
  by_cases hh : (i 2).val < 64
  · by_cases hw : (i 3).val < 64
    · rw [if_pos hh, if_pos hw]
      rw [val_main_v41_apply, val_main_v0_apply, val_main_v40_apply, val_main_v39_apply, val_main_v38_apply,
        val_main_v37_apply, slice0_inQuad i hh hw, gate0_idx i hh hw]
      rfl
    · rw [if_pos hh, if_neg hw]
      rw [val_main_v45_apply, val_main_v1_apply, val_main_v44_apply, val_main_v43_apply, val_main_v42_apply,
        val_main_v37_apply, slice1_inQuad i hh hw, gate1_idx i hh hw]
      rfl
  · by_cases hw : (i 3).val < 64
    · rw [if_neg hh, if_pos hw]
      rw [val_main_v50_apply, val_main_v2_apply, val_main_v49_apply, val_main_v48_apply, val_main_v47_apply,
        val_main_v37_apply, slice2_inQuad i hh hw, gate2_idx i hh hw]
      rfl
    · rw [if_neg hh, if_neg hw]
      rw [val_main_v54_apply, val_main_v3_apply, val_main_v53_apply, val_main_v52_apply, val_main_v51_apply,
        val_main_v37_apply, slice3_inQuad i hh hw, gate3_idx i hh hw]
      rfl

end Cert.ReferenceIdeal.RefRead

end
-- ==== Proof.SpecLaw.lean ====
/-
  The law that joins the two spellings of a quadrant's mean.  With every entry a real, the row sums, their
  quotients by 64 and the sums of those are all reals, and over the reals
    (∑ₕ (∑_w x) · (1/64)) · (1/64) = (0 + ∑ₕ ∑_w x) · (1/4096):
  the factor 1/64 moves out of the finite sum over rows, and (1/64)·(1/64) = 1/4096.  On the extended reals a
  quotient by a nonzero real y is the product with the real 1/y, which is how the reals are reached.
-/
import proofs.«178173_j55224689492532_1_alg».proof.Proof.Spec
import Mathlib.Data.EReal.Basic
import Mathlib.Data.EReal.Operations
import Mathlib.Algebra.BigOperators.Ring.Finset
import Mathlib.Tactic.Ring
import Mathlib.Tactic.NormNum

noncomputable section

namespace Cert.Spec

open Idealize.ShloMosaic Idealize.ShloMosaic.ValueIdx

/-- A finite sum of reals, taken in the extended reals, is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The pattern of 64.0 denotes the real 64. -/
theorem c64_eq : c64 = ((64 : ℝ) : EReal) := by
  unfold c64; simp [Ideal.ofBits, Ideal.ieee, -EReal.coe_mul]; norm_num

/-- The pattern of 4096.0 denotes the real 4096. -/
theorem c4096_eq : c4096 = ((4096 : ℝ) : EReal) := by
  unfold c4096; simp [Ideal.ofBits, Ideal.ieee, -EReal.coe_mul]; norm_num

/-- The pattern of 0.0 denotes 0. -/
theorem c0_eq : c0 = 0 := by
  unfold c0; simp [Ideal.ofBits, Ideal.ieee]

/-- With real entries, a quadrant's mean taken axis by axis is its mean taken jointly. -/
theorem meanSeq_eq_meanJoint (t : T4.Idx → EReal) (hreal : ∀ i, ∃ r : ℝ, t i = (r : EReal))
    (b : Fin 16) (q : Fin 4) (c : Fin 256) : meanSeq t b q c = meanJoint t b q c := by
  choose f hf using hreal
  unfold meanSeq meanJoint
  simp only [hf, c64_eq, c4096_eq, c0_eq, Ideal.div_coe (by norm_num : (64 : ℝ) ≠ 0),
    Ideal.div_coe (by norm_num : (4096 : ℝ) ≠ 0), coe_sum, ← EReal.coe_mul, zero_add]
  rw [EReal.coe_eq_coe_iff, ← Finset.sum_mul]
  ring

/-- So the two flat [16, 1024] arrays of means are one array. -/
theorem meansSeq2_eq_meansJoint2 (t : T4.Idx → EReal) (hreal : ∀ i, ∃ r : ℝ, t i = (r : EReal)) :
    meansSeq2 t = meansJoint2 t :=
  funext fun _ => meanSeq_eq_meanJoint t hreal _ _ _

end Cert.Spec

end
-- ==== Proof.Finite.lean ====
/-
  From the precondition to real entries.  The precondition's first conjunct is `jnp.all(|t| < +inf)`: a reduction
  by `and` over every entry of the comparison `|t i| < +inf`.  Where the whole predicate is 1 every entry of that
  comparison is 1, and an extended real whose absolute value `max x (-x)` lies below `+inf` is neither infinity:
  it is a real.
-/
import proofs.«178173_j55224689492532_1_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Finite

open Cert.Pre_finite_inputs Idealize.ShloMosaic Idealize.ShloMosaic.ValueIdx

variable [Cert.Pre_finite_inputs.Facts]
open Cert.Pre_finite_inputs.Facts

instance : Subsingleton S_.Idx := ⟨fun a b => funext fun d => d.elim0⟩

/-- The f32 pattern of +inf denotes the top of the extended reals. -/
theorem ofBits_inf : Ideal.ofBits .f32 0x7F800000#32 = (⊤ : EReal) := by
  simp [Ideal.ofBits, Ideal.ieee]

/-- An extended real whose absolute value is below `+inf` is a real. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every entry of the first argument is a real. -/
theorem arg0_real (a0 : FVec Ideal S16x256x128x128 .f32) (a1 : FVec Ideal S256x1024 .f32) (a2 : FVec Ideal S256 .f32)
    (a3 : FVec Ideal S1024x256 .f32) (a4 : FVec Ideal S1024 .f32)
    (h : fn (F := Ideal) a0 a1 a2 a3 a4 = fun _ => 1#1) (i : S16x256x128x128.Idx) : ∃ r : ℝ, a0 i = (r : EReal) := by
  have h0 := congrFun h ix0
  dsimp only [fn, fn_part1] at h0
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  have e := Host.reduce_andi_all _ _ _ _ _ h4 i
  refine real_of_abs_lt_top (a0 i) ?_
  have e' : Ideal.cmp .olt (max (a0 i) (-(a0 i))) (Ideal.ofBits .f32 0x7F800000#32) = 1#1 := e
  rw [ofBits_inf] at e'
  by_contra hn
  have e0 : Ideal.cmp .olt (max (a0 i) (-(a0 i))) ⊤ = 0#1 := by
    unfold Ideal.cmp; simp only [decide_eq_false hn]; rfl
  rw [e0] at e'
  exact absurd e' (by decide)

end Cert.Pre_finite_inputs.Finite

end
-- ==== Proof.lean ====
/-
  The certificate of a squeeze-excite gate over image quadrants.

  The input t is a [16, 256, 128, 128] array: 16 × 256 images of 128 × 128, each cut into four 64 × 64 quadrants.
  Both programs compute, per image and quadrant, the quadrant's mean; lay the means flat as [16, 1024]; push them
  through two small dense layers (mish after the first, a logistic after the second) to get a gate in [16, 4, 256];
  and multiply every entry of t by the gate of its image and quadrant.

  They differ in two places only.  The kernel program takes a quadrant's mean one axis at a time (each row's sum over
  64, then the sum of those over 64) and the reference jointly (the sum of all 4096 entries over 4096): over the reals
  these agree because division by 64 distributes over a finite sum, and the precondition makes every entry of t a
  real (on the extended reals the distribution fails at infinities).  And the kernel program reads and writes through
  blocks of [1, 128, 128, 128] (one image batch, half the channels) where the reference slices and concatenates whole
  arrays: index by index both write t(b, c, h, w) · gate(b, 2·(h/64) + w/64, c).  The dense layers are the same
  operations on both sides and are carried as one function, never opened.

  The frames of the two kernel programs are the generated ones; the reference's frame is its run with the result
  dropped.  The idealization rewrote nothing, so there is nothing to preserve.
-/
import proofs.«178173_j55224689492532_1_alg».proof.Defs
import proofs.«178173_j55224689492532_1_alg».proof.Proof.Gen.Kernel
import proofs.«178173_j55224689492532_1_alg».proof.Proof.Gen.Kernel.Skeleton
import proofs.«178173_j55224689492532_1_alg».proof.Proof.Gen.Kernel.Launch
import proofs.«178173_j55224689492532_1_alg».proof.Proof.Gen.Kernel.Points
import proofs.«178173_j55224689492532_1_alg».proof.Proof.Gen.Kernel.Frame
import proofs.«178173_j55224689492532_1_alg».proof.Proof.Gen.KernelIdeal
import proofs.«178173_j55224689492532_1_alg».proof.Proof.Gen.KernelIdeal.Skeleton
import proofs.«178173_j55224689492532_1_alg».proof.Proof.Gen.KernelIdeal.Launch
import proofs.«178173_j55224689492532_1_alg».proof.Proof.Gen.KernelIdeal.Points
import proofs.«178173_j55224689492532_1_alg».proof.Proof.Gen.KernelIdeal.Frame
import proofs.«178173_j55224689492532_1_alg».proof.Proof.Gen.ReferenceIdeal
import proofs.«178173_j55224689492532_1_alg».proof.Proof.Gen.Pre_finite_inputs
import proofs.«178173_j55224689492532_1_alg».proof.Proof.RefRunCopy
import proofs.«178173_j55224689492532_1_alg».proof.Proof.RefReadCopy
import proofs.«178173_j55224689492532_1_alg».proof.Proof.KernelValue
import proofs.«178173_j55224689492532_1_alg».proof.Proof.RefGate
import proofs.«178173_j55224689492532_1_alg».proof.Proof.RefMeans
import proofs.«178173_j55224689492532_1_alg».proof.Proof.RefGated
import proofs.«178173_j55224689492532_1_alg».proof.Proof.SpecLaw
import proofs.«178173_j55224689492532_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and leaves its arguments alone: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments alone: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The reference's result, as a function of its argument arrays, is the kernel program's: the same gating of the
    first argument, by the same function of flat quadrant means that agree once every entry is a real. -/
theorem reference_result_eq
    (a0 : FVec Ideal Cert.KernelIdeal.S16x256x128x128 .f32) (a1 : FVec Ideal Cert.KernelIdeal.S256x1024 .f32)
    (a2 : FVec Ideal Cert.KernelIdeal.S256 .f32) (a3 : FVec Ideal Cert.KernelIdeal.S1024x256 .f32)
    (a4 : FVec Ideal Cert.KernelIdeal.S1024 .f32) (hreal : ∀ i, ∃ r : ℝ, a0 i = (r : EReal)) :
    Cert.ReferenceIdeal.ReadP.val_main_v56 (F := Ideal) a0 a1 a2 a3 a4 = Cert.KernelIdeal.Result.resultOf a0 a1 a2 a3 a4 := by
  rw [Cert.ReferenceIdeal.RefRead.result_gated, Cert.Bridge.ref_gate, Cert.ReferenceIdeal.RefRead.flat_means]
  unfold Cert.KernelIdeal.Result.resultOf
  rw [Cert.Spec.meansSeq2_eq_meansJoint2 a0 hreal]

/-- At the ideal instance, from memories that agree on the arguments and satisfy the precondition, both programs run
    and end with the same result array. -/
theorem algebraic : Cert.algebraic_KernelIdeal_ReferenceIdeal := by
  intro m ρ m' ρ' hpre hagree
  refine ⟨fun c => Cert.KernelIdeal.Result.resultOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v56_eq, (hagree c).1, (hagree c).2.1, (hagree c).2.2.1, (hagree c).2.2.2.1, (hagree c).2.2.2.2]
  exact reference_result_eq _ _ _ _ _ (fun i => Cert.Pre_finite_inputs.Finite.arg0_real _ _ _ _ _ (hpre c) i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
